-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000 : Shape := ⟨1, ![320000]⟩
abbrev S256x512 : Shape := ⟨2, ![256, 512]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg2 : IVec S320000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_c_6 : IVec S_ 32 := constantI S_ 32 0#32
  let main_v19 : IVec S320000 32 := broadcastInDim S320000 ![] bcast_S_S320000 main_c_6
  let main_v20 : IVec S320000 1 := cmpi .sge main_arg2 main_v19
  let main_c_7 : IVec S_ 32 := constantI S_ 32 10000#32
  let main_v21 : IVec S320000 32 := broadcastInDim S320000 ![] bcast_S_S320000 main_c_7
  let main_v22 : IVec S320000 1 := cmpi .slt main_arg2 main_v21
  let main_v23 : IVec S320000 1 := andi main_v20 main_v22
  let main_c_8 : IVec S_ 1 := constantI S_ 1 1#1
  let main_v24 : IVec S_ 1 := (fun x v => Host.reduce IntOp.andi x v reducesTo_S320000_S_d0 h_S_) main_v23 main_c_8
  let main_v25 : IVec S_ 1 := andi main_v18 main_v24
  main_v25

def fn {F : FTy → Type} [FloatOps F] (main_arg0 : FVec F S10000x256 .f32) (main_arg1 : FVec F S320000 .f32) (main_arg2 : IVec S320000 32) (main_arg3 : IVec S320000 32) (main_arg4 : FVec F S256x512 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg1
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_v13 main_v16
-- ==== Kernel.lean ====
abbrev S10000x256 : Shape := ⟨2, ![10000, 256]⟩
abbrev S320000 : Shape := ⟨1, ![320000]⟩
abbrev S256x512 : Shape := ⟨2, ![256, 512]⟩
abbrev S256 : Shape := ⟨1, ![256]⟩
abbrev S256x10000 : Shape := ⟨2, ![256, 10000]⟩
abbrev S256x1 : Shape := ⟨2, ![256, 1]⟩
abbrev S256x256 : Shape := ⟨2, ![256, 256]⟩
abbrev S1x256 : Shape := ⟨2, ![1, 256]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S1 : Shape := ⟨1, ![1]⟩
abbrev S2000x256 : Shape := ⟨2, ![2000, 256]⟩

abbrev nBuf : Space → Nat
  | .hbm => 48
  | .vmem => 17
  | .smem => 0
  | _ => 0

abbrev bufTy : (tb : Table) → Fin (tcTables nBuf tb) → BufTy
  | .hbm, ⟨0, _⟩ => ⟨S10000x256, .f32⟩
  | .hbm, ⟨1, _⟩ => ⟨S320000, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S256, .f32⟩
  | .hbm, ⟨6, _⟩ => ⟨S10000x256, .f32⟩
  | .hbm, ⟨7, _⟩ => ⟨S_, .f32⟩
  | .hbm, ⟨8, _⟩ => ⟨S320000, .f32⟩
  | .hbm, ⟨9, _⟩ => ⟨S_, .f32⟩
  | .hbm, ⟨10, _⟩ => ⟨S10000, .f32⟩
  | .hbm, ⟨11, _⟩ => ⟨S320000x1, .i32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S10000x1, .f32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x256, .f32⟩
  | .hbm, ⟨36, _⟩ => ⟨S256, .f32⟩
  | .hbm, ⟨37, _⟩ => ⟨S1x256, .f32⟩
  | .hbm, ⟨38, _⟩ => ⟨S10000x256, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S1x256, .f32⟩
  | .hbm, ⟨47, _⟩ => ⟨S10000x256, .f32⟩
  | .local _ .vmem, ⟨0, _⟩ => ⟨S10000x256, .f32⟩
  | .local _ .vmem, ⟨1, _⟩ => ⟨S256, .i32⟩
  | .local _ .vmem, ⟨2, _⟩ => ⟨S256, .i32⟩
  | .local _ .vmem, ⟨3, _⟩ => ⟨S256, .i32⟩
  | .local _ .vmem, ⟨4, _⟩ => ⟨S256, .i32⟩
  | .local _ .vmem, ⟨5, _⟩ => ⟨S256, .f32⟩
  | .local _ .vmem, ⟨6, _⟩ => ⟨S256, .f32⟩
  | .local _ .vmem, ⟨7, _⟩ => ⟨S10000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S256x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_c_5 : Ref sig .tc := ⟨.hbm, 28, rfl⟩
abbrev main_v15 : Ref sig .tc := ⟨.hbm, 29, rfl⟩
abbrev main_c_6 : Ref sig .tc := ⟨.hbm, 30, rfl⟩
abbrev main_c_7 : Ref sig .tc := ⟨.hbm, 31, rfl⟩
abbrev main_v16 : Ref sig .tc := ⟨.hbm, 32, rfl⟩
abbrev main_c_8 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![1250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10000x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  inb_S256_S256_0 : ∀ a, (![0] : Fin 1 → Nat) a + S256.size a ≤ S256.size a
  h_S256 : 0 < S256.numel
  iota_S256x10000_d1_w32 : S256x10000.Iotas .tc 32 [1]
  shapeCasts_S256_S256x1 : S256.ShapeCasts S256x1
  broadcasts_S256x1_S256x10000 : S256x1.Broadcasts S256x10000
  natLt_1_32 : 1 < 32
  bitsLt_bf16_f32 : FTy.bits .bf16 < FTy.bits .f32
  broadcasts_S256x1_S256x256 : S256x1.Broadcasts S256x256
  iota_S10000x256_d0_w32 : S10000x256.Iotas .tc 32 [0]
  shapeCasts_S256_S1x256 : S256.ShapeCasts S1x256
  broadcasts_S1x256_S10000x256 : S1x256.Broadcasts S10000x256
  shapeCasts_S10000x256_S10000x256 : S10000x256.ShapeCasts S10000x256
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  slices_S320000_S1_0 : S320000.Slices ![0] S1
  shapeCasts_S1_S_ : S1.ShapeCasts S_
  sliceFits_S10000x256_S1x256 : S10000x256.Slices (fun _ => 0) S1x256
  h_S_ : 0 < S_.numel
  shapeCasts_S1x256_S256 : S1x256.ShapeCasts S256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S10000x1_S10000x256_0_1 : S10000x1.BroadcastsInDim S10000x256 (![0, 1] : Fin 2 → Fin S10000x256.rank)
  slices_S256x512_S256x256_0_0 : S256x512.Slices ![0, 0] S256x256
  slices_S256x512_S256x256_0_256 : S256x512.Slices ![0, 256] S256x256
  transposes_S256x256_S256x256_1_0 : S256x256.Transposes [1, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S256x10000_S10000x256_S256x256_1_0_0_1_n_n_wf : DotDims.WF S256x10000 S10000x256 S256x256 [1] [0] [0] [1] [] []
  dot_S10000x256_S256x256_S10000x256_1_0_0_1_n_n_wf : DotDims.WF S10000x256 S256x256 S10000x256 [1] [0] [0] [1] [] []
  scatter_S10000_S320000x1_S320000_n_0_0_1_wf : ScatterDims.WF S10000 S320000x1 S320000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S320000.size a
  hwx0_1 : ∀ i : grid0.Coords, EltTy.bits .i32 = 32 ∨ (Rect.block (s := S320000) S256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S320000.size a
  hwx0_2 : ∀ i : grid0.Coords, EltTy.bits .i32 = 32 ∨ (Rect.block (s := S320000) S256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S320000.size a
  hwx0_3 : ∀ i : grid0.Coords, EltTy.bits .f32 = 32 ∨ (Rect.block (s := S320000) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x256.size a ≤ S10000x256.size a
  hwx0_4 : ∀ i : grid0.Coords, EltTy.bits .f32 = 32 ∨ (Rect.block (s := S10000x256) S10000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)

variable [Facts₀]

def dot_S256x10000_S10000x256_S256x256_1_0_0_1_n_n : DotDims S256x10000 S10000x256 S256x256 where
  lhsContracting := [1]
  rhsContracting := [0]
  lhsNonContracting := [0]
  rhsNonContracting := [1]
  lhsBatch := []
  rhsBatch := []
  wf := dot_S256x10000_S10000x256_S256x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S10000x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S320000 : Shape := ⟨1, ![320000]⟩
abbrev S256x512 : Shape := ⟨2, ![256, 512]⟩
abbrev S256 : Shape := ⟨1, ![256]⟩
abbrev S1 : Shape := ⟨1, ![1]⟩
abbrev S_ : Shape := ⟨0, ![]⟩
abbrev S1x256 : Shape := ⟨2, ![1, 256]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S10000x512 : Shape := ⟨2, ![10000, 512]⟩
abbrev S512x256 : Shape := ⟨2, ![512, 256]⟩

abbrev nBuf : Space → Nat
  | .hbm => 63
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S256, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x256, .f32⟩
  | .hbm, ⟨22, _⟩ => ⟨S256, .f32⟩
  | .hbm, ⟨23, _⟩ => ⟨S_, .i32⟩
  | .hbm, ⟨24, _⟩ => ⟨S320000, .i32⟩
  | .hbm, ⟨25, _⟩ => ⟨S320000, .i1⟩
  | .hbm, ⟨26, _⟩ => ⟨S_, .i32⟩
  | .hbm, ⟨27, _⟩ => ⟨S320000, .i32⟩
  | .hbm, ⟨28, _⟩ => ⟨S320000, .i32⟩
  | .hbm, ⟨29, _⟩ => ⟨S320000, .i32⟩
  | .hbm, ⟨30, _⟩ => ⟨S320000x1, .i32⟩
  | .hbm, ⟨31, _⟩ => ⟨S320000x256, .f32⟩
  | .hbm, ⟨32, _⟩ => ⟨S1x256, .f32⟩
  | .hbm, ⟨33, _⟩ => ⟨S320000x256, .f32⟩
  | .hbm, ⟨34, _⟩ => ⟨S320000x256, .f32⟩
  | .hbm, ⟨35, _⟩ => ⟨S320000x1, .f32⟩
  | .hbm, ⟨36, _⟩ => ⟨S320000x256, .f32⟩
  | .hbm, ⟨37, _⟩ => ⟨S320000x256, .f32⟩
  | .hbm, ⟨38, _⟩ => ⟨S_, .f32⟩
  | .hbm, ⟨39, _⟩ => ⟨S10000x256, .f32⟩
  | .hbm, ⟨40, _⟩ => ⟨S320000x1, .i32⟩
  | .hbm, ⟨41, _⟩ => ⟨S10000x256, .f32⟩
  | .hbm, ⟨42, _⟩ => ⟨S_, .f32⟩
  | .hbm, ⟨43, _⟩ => ⟨S320000, .f32⟩
  | .hbm, ⟨44, _⟩ => ⟨S_, .f32⟩
  | .hbm, ⟨45, _⟩ => ⟨S10000, .f32⟩
  | .hbm, ⟨46, _⟩ => ⟨S320000x1, .i32⟩
  | .hbm, ⟨47, _⟩ => ⟨S10000, .f32⟩
  | .hbm, ⟨48, _⟩ => ⟨S_, .f32⟩
  | .hbm, ⟨49, _⟩ => ⟨S10000, .f32⟩
  | .hbm, ⟨50, _⟩ => ⟨S10000, .f32⟩
  | .hbm, ⟨51, _⟩ => ⟨S10000x1, .f32⟩
  | .hbm, ⟨52, _⟩ => ⟨S10000x256, .f32⟩
  | .hbm, ⟨53, _⟩ => ⟨S10000x256, .f32⟩
  | .hbm, ⟨54, _⟩ => ⟨S10000x512, .f32⟩
  | .hbm, ⟨55, _⟩ => ⟨S512x256, .f32⟩
  | .hbm, ⟨56, _⟩ => ⟨S10000x256, .f32⟩
  | .hbm, ⟨57, _⟩ => ⟨S1x256, .f32⟩
  | .hbm, ⟨58, _⟩ => ⟨S10000x256, .f32⟩
  | .hbm, ⟨59, _⟩ => ⟨S10000x256, .f32⟩
  | .hbm, ⟨60, _⟩ => ⟨S_, .f32⟩
  | .hbm, ⟨61, _⟩ => ⟨S10000x256, .f32⟩
  | .hbm, ⟨62, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_c_2 : Ref sig .tc := ⟨.hbm, 14, rfl⟩
abbrev main_v5 : Ref sig .tc := ⟨.hbm, 15, rfl⟩
abbrev main_c_3 : Ref sig .tc := ⟨.hbm, 16, rfl⟩
abbrev main_c_4 : Ref sig .tc := ⟨.hbm, 17, rfl⟩
abbrev main_v6 : Ref sig .tc := ⟨.hbm, 18, rfl⟩
abbrev main_c_5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_6 : Ref sig .tc := ⟨.hbm, 23, rfl⟩
abbrev main_v10 : Ref sig .tc := ⟨.hbm, 24, rfl⟩
abbrev main_v11 : Ref sig .tc := ⟨.hbm, 25, rfl⟩
abbrev main_c_7 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_cst : Ref sig .tc := ⟨.hbm, 60, rfl⟩
abbrev main_call0_v0 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  slices_S320000_S1_0 : S320000.Slices ![0] S1
  shapeCasts_S1_S_ : S1.ShapeCasts S_
  sliceFits_S10000x256_S1x256 : S10000x256.Slices (fun _ => 0) S1x256
  h_S_ : 0 < S_.numel
  shapeCasts_S1x256_S256 : S1x256.ShapeCasts S256
  bcast_S_S320000 : S_.BroadcastsInDim S320000 (![] : Fin 0 → Fin S320000.rank)
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  transposes_S256x512_S512x256_1_0 : S256x512.Transposes [1, 0] S512x256
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.KIR0Runs.lean ====
/- Region 0 (the edge gather and scatter kernel): the body's branch condition over the grid, the staging memrefs
   the pipeline passes at a point, and the body's run in each of its two control cases — the first point, where the
   output block is zeroed before it is accumulated into, and every later point, where it is accumulated into as the
   point before left it. Each run is found as a subtype: the pieces the output's staging buffer ends with are its
   witness. At any float instance. -/
import proofs.«418778_j10660108829138_1_alg».proof.Proof.Gen.KernelIdeal.Launch
import proofs.«418778_j10660108829138_1_alg».proof.Proof.Gen.KernelIdeal.Skeleton
import proofs.«418778_j10660108829138_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch condition -/

/-- The condition of the body's one conditional, from the grid coordinates (the scalar chain substituted). -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 1250 = 0 :=
  (by decide +kernel : ∀ t : Fin grid0.N, cond0_0 (grid0.coords t) ↔ t.val % 1250 = 0)

/-! ## The staging memrefs at a point -/

/-- The one staging buffer of the output window, through which its contents are stated. -/
abbrev VO0_4 : View sig .tc .vmem S10000x256 .f32 := (Memref.whole cc0_stg4_0 : Memref sig .tc .vmem S10000x256 .f32).view
/-- Each window's current staging memref at point t, spelled as the pipeline passes it, and its wholeness. -/
abbrev ms0_0 (t : Fin cfg0.N) : Memref sig .tc .vmem S10000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x256 .f32 := win0_4.stage (cfg0.slots t 4)
abbrev hs0_4 (t : Fin cfg0.N) : (ms0_4 t).IsWhole := hstage0_4 ((cfg0.slots t 4).cast nbuf0_4)

/-! ## The body's run, case by case -/

set_option maxHeartbeats 1000000 in
/-- CASE A (the conditional taken: the first point). On whole staging memrefs, the four inputs' at their contents and
    the output's at anything, the body runs to the continuation holding the inputs' as they were and the output's
    buffer with the pieces its two stores wrote, last first. -/
noncomputable def kernelRun0_A (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : cond0_0 i)
    (x0 : Vec F S10000x256 .f32) (x1 : Vec F S256 .i32) (x2 : Vec F S256 .i32) (x3 : Vec F S256 .f32) :
    { L4 : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__edge_gather_scatter_kernel i arg1 harg1 arg2 harg2 arg3 harg3 arg4 harg4 arg5 harg5) K } := by
  refine ⟨?_, fun E K => ?run⟩
  case run =>
    simp only [cc0__edge_gather_scatter_kernel_eq_skeleton]; unfold cc0__edge_gather_scatter_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

set_option maxHeartbeats 1000000 in
/-- CASE B (the conditional not taken: every later point). On whole staging memrefs, the four inputs' at their
    contents and the output's at its running contents xo4, the body runs to the continuation holding the inputs' as
    they were and the output's buffer with the piece its one store wrote. -/
noncomputable def kernelRun0_B (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : ¬cond0_0 i)
    (x0 : Vec F S10000x256 .f32) (x1 : Vec F S256 .i32) (x2 : Vec F S256 .i32) (x3 : Vec F S256 .f32) (xo4 : Vec F S10000x256 .f32) :
    { L4 : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__edge_gather_scatter_kernel i arg1 harg1 arg2 harg2 arg3 harg3 arg4 harg4 arg5 harg5) K } := by
  refine ⟨?_, fun E K => ?run⟩
  case run =>
    simp only [cc0__edge_gather_scatter_kernel_eq_skeleton]; unfold cc0__edge_gather_scatter_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KIR0.lean ====
/- Region 0 (the edge gather and scatter kernel, 1250 grid points, its output block carried from point to point):
   what the output holds after each point, the pipeline's proof data and the body obligation, at any float instance,
   stated at the buffer contents V the region is entered with. -/
import proofs.«418778_j10660108829138_1_alg».proof.Proof.KIR0Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is the entry contents and whose body
    leaves the block in place. Window 0 is fetched at the first point only, windows 1, 2, 3 at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block -/

/-- Case A's pieces for the output cover its block: two stores of the whole block. -/
theorem cover0_A_4 (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : cond0_0 i)
    (x0 : Vec F S10000x256 .f32) (x1 : Vec F S256 .i32) (x2 : Vec F S256 .i32) (x3 : Vec F S256 .f32) (y : S10000x256.Idx) :
    ∃ pc ∈ (kernelRun0_A c i arg1 harg1 arg2 harg2 arg3 harg3 arg4 harg4 arg5 harg5 hc0 x0 x1 x2 x3).1, y ∈ pc.1.set :=
  View.cover_of_tiledL (kernelRun0_A c i arg1 harg1 arg2 harg2 arg3 harg3 arg4 harg4 arg5 harg5 hc0 x0 x1 x2 x3).1 S10000x256.size (by sl_kernel_rfl) y

/-- What case A leaves in the output's staging buffer: its pieces read back over junk. -/
def out0_A_4 (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : cond0_0 i)
    (x0 : Vec F S10000x256 .f32) (x1 : Vec F S256 .i32) (x2 : Vec F S256 .i32) (x3 : Vec F S256 .f32) : Vec F S10000x256 .f32 :=
  VO0_4.read (Elt F) (VO0_4.writes (Elt F) VO0_4.junk (kernelRun0_A c i arg1 harg1 arg2 harg2 arg3 harg3 arg4 harg4 arg5 harg5 hc0 x0 x1 x2 x3).1)

/-- Case B's piece for the output covers its block: one store of the whole block. -/
theorem cover0_B_4 (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : ¬cond0_0 i)
    (x0 : Vec F S10000x256 .f32) (x1 : Vec F S256 .i32) (x2 : Vec F S256 .i32) (x3 : Vec F S256 .f32) (xo4 : Vec F S10000x256 .f32) (y : S10000x256.Idx) :
    ∃ pc ∈ (kernelRun0_B c i arg1 harg1 arg2 harg2 arg3 harg3 arg4 harg4 arg5 harg5 hc0 x0 x1 x2 x3 xo4).1, y ∈ pc.1.set :=
  View.cover_of_tiledL (kernelRun0_B c i arg1 harg1 arg2 harg2 arg3 harg3 arg4 harg4 arg5 harg5 hc0 x0 x1 x2 x3 xo4).1 S10000x256.size (by sl_kernel_rfl) y

/-- What case B leaves in the output's staging buffer: its piece read back over junk. -/
def out0_B_4 (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : ¬cond0_0 i)
    (x0 : Vec F S10000x256 .f32) (x1 : Vec F S256 .i32) (x2 : Vec F S256 .i32) (x3 : Vec F S256 .f32) (xo4 : Vec F S10000x256 .f32) : Vec F S10000x256 .f32 :=
  VO0_4.read (Elt F) (VO0_4.writes (Elt F) VO0_4.junk (kernelRun0_B c i arg1 harg1 arg2 harg2 arg3 harg3 arg4 harg4 arg5 harg5 hc0 x0 x1 x2 x3 xo4).1)

/-- The whole-block rectangle's offsets are zero. -/
theorem hz2 : (![0, 0] : Fin S10000x256.rank → ℕ) = fun _ => 0 := by funext a; fin_cases a <;> rfl
theorem hz1 : (![0] : Fin S256.rank → ℕ) = fun _ => 0 := by funext a; fin_cases a <;> rfl

/-- Case A leaves the point's contribution added to the zero block: the block is zeroed, read back, and the sum
    stored over it. -/
theorem out0_A_4_eq (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : cond0_0 i)
    (x0 : Vec F S10000x256 .f32) (x1 : Vec F S256 .i32) (x2 : Vec F S256 .i32) (x3 : Vec F S256 .f32) :
    out0_A_4 c i arg1 harg1 arg2 harg2 arg3 harg3 arg4 harg4 arg5 harg5 hc0 x0 x1 x2 x3 = k0_pay2 x1 x2 x3 x0 (k0_pay1 (F := F)) := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  rw [View.canon_cons_unit_zero (S := S10000x256) hz2]
  rw [View.readCov_unit_zero (S := S10000x256) _ hz2]
  simp only [View.readAt_eq_ld, harg1.read_unread, harg2.read_unread, harg3.read_unread, harg4.read_unread,
    View.ld_unit_zero (S := S10000x256) hz2, View.ld_unit_zero (S := S256) hz1]

/-- Case B leaves the point's contribution added to what the block held. -/
theorem out0_B_4_eq (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : ¬cond0_0 i)
    (x0 : Vec F S10000x256 .f32) (x1 : Vec F S256 .i32) (x2 : Vec F S256 .i32) (x3 : Vec F S256 .f32) (xo4 : Vec F S10000x256 .f32) :
    out0_B_4 c i arg1 harg1 arg2 harg2 arg3 harg3 arg4 harg4 arg5 harg5 hc0 x0 x1 x2 x3 xo4 = k0_pay2 x1 x2 x3 x0 xo4 := by
  unfold out0_B_4
  rw [View.read_writes_eq_canon _ _ _ (cover0_B_4 c i arg1 harg1 arg2 harg2 arg3 harg3 arg4 harg4 arg5 harg5 hc0 x0 x1 x2 x3 xo4)]
  unfold kernelRun0_B
  dsimp only
  sl_unfold_words
  rw [View.canon_unit_zero (S := S10000x256) hz2]
  simp only [View.readAt_eq_ld, harg1.read_unread, harg2.read_unread, harg3.read_unread, harg4.read_unread, harg5.read_unread,
    View.ld_unit_zero (S := S10000x256) hz2, View.ld_unit_zero (S := S256) hz1]

/-! ## What the output holds after each point -/

/-- What the output window's staging buffer holds after the body at position n. -/
def outsAt0 (V : (c : Dev nD) → (b : Ref sig .tc) → Buf (Elt F) ((c : Thread nD τ).loc b)) (c : Dev nD) : (n : ℕ) → n < cfg0.N → Vec F S10000x256 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 1250 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn))

/-- At a point of case A: that case's contents. -/
theorem outsAt0_A (c : Dev nD) (t : Fin cfg0.N) (h0 : t.val % 1250 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) (iblk0 V c 3 t) := by
  obtain ⟨n, hn⟩ := t
  cases n with
  | zero => exact rfl
  | succ n => exact (dif_pos h0).trans rfl

/-- At a point of case B: that case's contents, over what the point before left. -/
theorem outsAt0_B (c : Dev nD) (t : Fin cfg0.N) (h0 : ¬t.val % 1250 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- At the first point the body zeroes the block and then adds the chunk's contribution to it. -/
theorem outsAt0_zero (c : Dev nD) (h : 0 < cfg0.N) :
    outsAt0 V c 0 h = k0_pay2 (iblk0 V c 1 ⟨0, h⟩) (iblk0 V c 2 ⟨0, h⟩) (iblk0 V c 3 ⟨0, h⟩) (iblk0 V c 0 ⟨0, h⟩) (k0_pay1 (F := F)) :=
  (outsAt0_A V c ⟨0, h⟩ (Nat.zero_mod _)).trans
    (out0_A_4_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr (Nat.zero_mod _)) (iblk0 V c 0 ⟨0, h⟩) (iblk0 V c 1 ⟨0, h⟩) (iblk0 V c 2 ⟨0, h⟩) (iblk0 V c 3 ⟨0, h⟩))

/-- At a later point the body adds the chunk's contribution to what the point before left. -/
theorem outsAt0_succ (c : Dev nD) (n : ℕ) (h : n + 1 < cfg0.N) :
    outsAt0 V c (n + 1) h = k0_pay2 (iblk0 V c 1 ⟨n + 1, h⟩) (iblk0 V c 2 ⟨n + 1, h⟩) (iblk0 V c 3 ⟨n + 1, h⟩) (iblk0 V c 0 ⟨n + 1, h⟩)
      (outsAt0 V c n (Nat.lt_of_succ_lt h)) := by
  have hN : n + 1 < 1250 := lt_of_lt_of_eq h (show cfg0.N = 1250 from N_0)
  have h0 : ¬(n + 1) % 1250 = 0 := by omega
  exact (outsAt0_B V c ⟨n + 1, h⟩ h0).trans
    (out0_B_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => h0 ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)))

/-! ## The pipeline's proof data -/

/-- The proof data of pipeline 0 on core c: the arrays as the region finds them; after the body at point t each
    input's buffer at its block and the output's at what the points so far accumulated; the invariant the scoped
    rest and the generator register, untouched; nothing owed; full shares. -/
def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem share0 (c : Dev nD) (w : Fin cfg0.W) : (dat0 V c).q w = fullShare := by dsimp only [dat0]
theorem owed0 (c : Dev nD) (t) : (dat0 V c).owed t = 0 := by dsimp only [dat0]
theorem Φ0 (c : Dev nD) (t) : (dat0 V c).Φ t = Pipeline.ΦA spec0 c := by dsimp only [dat0]
theorem recorded0 (c : Dev nD) (t) : (dat0 V c).recorded t = Set.univ := rfl

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a point of case B the output's staging buffer holds what the body left at the point before: the point is not
    the first, the buffer was not written back between (it is written back at the last point only), the window is
    live and uncut. -/
theorem before0_4_B (c : Dev nD) (t : Fin cfg0.N) (h0 : ¬t.val % 1250 = 0) (d) :
    (dat0 V c).before 4 t d = (outsAt0 V c (t.val - 1) (Nat.lt_of_le_of_lt (Nat.sub_le _ _) t.isLt)) := by
  have hN : t.val < 1250 := lt_of_lt_of_eq t.isLt (show cfg0.N = 1250 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form says which case the point is in; in
    case B the output's buffer holds what the point before left; so the case's run applies; the invariant passes
    through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 1250 := lt_of_lt_of_eq t.isLt (show cfg0.N = 1250 from N_0)
  by_cases h0 : t.val % 1250 = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIR1.lean ====
/- Region 1 (the apply kernel, 5 row tiles of 2000): what its output block holds after the body, the pipeline's
   proof data and the body obligation, at any float instance, stated at the buffer contents V the region is entered
   with. -/
import proofs.«418778_j10660108829138_1_alg».proof.Proof.Gen.KernelIdeal.Launch
import proofs.«418778_j10660108829138_1_alg».proof.Proof.Gen.KernelIdeal.Skeleton
import proofs.«418778_j10660108829138_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: unfetched, the block index has not moved
    (windows 2, 3 and 4 are fetched at the first point only, and their index is constant). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x256 := Rect.unit (s := S2000x256) ![0, 0] S2000x256.size inb_S2000x256_S2000x256_0_0

/-- The output window's staging buffer after the body, from the input windows' blocks. -/
def out1_5 (x0 : Vec F S2000x256 .f32) (x1 : Vec F S2000x256 .f32) (x2 : Vec F S256x256 .f32) (x3 : Vec F S256x256 .f32)
    (x4 : Vec F S1x256 .f32) : Vec F S2000x256 .f32 :=
  View.canon [⟨r1_0, k1_pay1 x0 x1 x2 x3 x4⟩]

/-- The one store is over the whole block, so it covers it. -/
theorem cover1_5 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

set_option maxHeartbeats 1000000 in
/-- The kernel body on whole staging memrefs, the inputs' at read contents x0..x4 and the output's at anything, runs
    to the continuation holding the inputs' as they were and the output's at out1_5 of the inputs'. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 : Vec F S2000x256 .f32) (x2 : Vec F S256x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__apply_kernel i arg1 harg1 arg2 harg2 arg3 harg3 arg4 harg4 arg5 harg5 arg6 harg6) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := funext fun a => by fin_cases a <;> rfl
  have e0 : View.readAt (Elt F) arg1.view (Rect.unit (s := S2000x256) ![0, 0] S2000x256.size inb_S2000x256_S2000x256_0_0).toLoadRect f0
      = View.read (Elt F) arg1.view f0 := View.ld_unit_zero (S := S2000x256) hz _ _
  have e1 : View.readAt (Elt F) arg2.view (Rect.unit (s := S2000x256) ![0, 0] S2000x256.size inb_S2000x256_S2000x256_0_0).toLoadRect f1
      = View.read (Elt F) arg2.view f1 := View.ld_unit_zero (S := S2000x256) hz _ _
  have e2 : View.readAt (Elt F) arg3.view (Rect.unit (s := S256x256) ![0, 0] S256x256.size inb_S256x256_S256x256_0_0).toLoadRect f2
      = View.read (Elt F) arg3.view f2 := View.ld_unit_zero (S := S256x256) hz _ _
  have e3 : View.readAt (Elt F) arg4.view (Rect.unit (s := S256x256) ![0, 0] S256x256.size inb_S256x256_S256x256_0_0).toLoadRect f3
      = View.read (Elt F) arg4.view f3 := View.ld_unit_zero (S := S256x256) hz _ _
  have e4 : View.readAt (Elt F) arg5.view (Rect.unit (s := S1x256) ![0, 0] S1x256.size inb_S1x256_S1x256_0_0).toLoadRect f4
      = View.read (Elt F) arg5.view f4 := View.ld_unit_zero (S := S1x256) hz _ _
  rw [e0, e1, e2, e3, e4]
  exact View.read_writes_eq_canon _ _ _ (cover1_5 _)

/-- The proof data of pipeline 1 on core c: the arrays as the region finds them; after the body at point t each
    input's buffer at its block and the output's at out1_5 of the input blocks; the invariant the scoped rest and the
    generator register, untouched; nothing owed; full shares. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem share1 (c : Dev nD) (w : Fin cfg1.W) : (dat1 V c).q w = fullShare := by dsimp only [dat1]
theorem owed1 (c : Dev nD) (t) : (dat1 V c).owed t = 0 := by dsimp only [dat1]
theorem Φ1 (c : Dev nD) (t) : (dat1 V c).Φ t = Pipeline.ΦA spec1 c := by dsimp only [dat1]
theorem recorded1 (c : Dev nD) (t) : (dat1 V c).recorded t = Set.univ := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/- The run of @main from the launch to the return, at any float instance. @main is three items: region 0 (the edge
   gather and scatter kernel, result main_v0), one stretch of forty host operations, region 1 (the apply kernel,
   result main_v30). This module names the buffers' contents at each boundary between the items, shows that every
   argument array is carried unchanged through all three, presents the two regions as segments of the run over their
   modules' proof data, and concludes the frame claim and the run with the result array named. -/
import proofs.«418778_j10660108829138_1_alg».proof.Proof.KIR0
import proofs.«418778_j10660108829138_1_alg».proof.Proof.KIR1
import proofs.«418778_j10660108829138_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between the items: a fold through @main -/

/-- Core c's buffers at launch (region 0's entry: no host operation comes before it). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, the output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves and every other buffer what it held at
    entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer no host operation writes is carried through the host stretch. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-! ### What the value side reads off the fold -/

/-- Region 1 is entered from the host stretch run on region 0's exit contents. -/
theorem V2_eq (c : Dev nD) (b : Ref sig .tc) : V2 m ρ c b = StableHlo.after hostOps1 (W1 m ρ c) (Proc.devRef .tc b) := rfl
/-- Region 0 is entered from the launch memory. -/
theorem V0_eq (c : Dev nD) (b : Ref sig .tc) : V0 m ρ c b = m ((c : Thread nD τ).loc b) := rfl
/-- Region 0 leaves in main_v0 its output window's array with every write-back folded. -/
theorem W1_main_v0 (c : Dev nD) : W1 m ρ c (Proc.devRef .tc main_v0) = (dat0 (V0 m ρ) c).arrAt 4 cfg0.N := W1_arr m ρ c 4

/-! ### The arguments end as launched: no host operation writes one, and a region reads it through an input window
    or does not touch it, so the fold at an argument's buffer walks back to the launch memory -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of m ρ c main_arg0 (by decide)
    _ = m ((c : Thread nD τ).loc main_arg0) := W1_main_arg0 m ρ c
theorem V0_main_arg0 (c : Dev nD) : V0 m ρ c main_arg0 = m ((c : Thread nD τ).loc main_arg0) := rfl

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := (W1_arr m ρ c 3).trans (((dat0 (V0 m ρ) c).arrAt_in 3 rfl _).trans (A_eq0 (V0 m ρ) c 3))
    _ = m ((c : Thread nD τ).loc main_arg1) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = m ((c : Thread nD τ).loc main_arg1) := W1_main_arg1 m ρ c
theorem V0_main_arg1 (c : Dev nD) : V0 m ρ c main_arg1 = m ((c : Thread nD τ).loc main_arg1) := rfl

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = m ((c : Thread nD τ).loc main_arg2) := W1_main_arg2 m ρ c
theorem V0_main_arg2 (c : Dev nD) : V0 m ρ c main_arg2 = m ((c : Thread nD τ).loc main_arg2) := rfl

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = m ((c : Thread nD τ).loc main_arg3) := W1_main_arg3 m ρ c
theorem V0_main_arg3 (c : Dev nD) : V0 m ρ c main_arg3 = m ((c : Thread nD τ).loc main_arg3) := rfl

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := W1_of_ne m ρ c main_arg4 (by decide)
    _ = m ((c : Thread nD τ).loc main_arg4) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of m ρ c main_arg4 (by decide)
    _ = m ((c : Thread nD τ).loc main_arg4) := W1_main_arg4 m ρ c
theorem V0_main_arg4 (c : Dev nD) : V0 m ρ c main_arg4 = m ((c : Thread nD τ).loc main_arg4) := rfl

theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := W1_of_ne m ρ c main_arg5 (by decide)
    _ = m ((c : Thread nD τ).loc main_arg5) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of m ρ c main_arg5 (by decide)
    _ = m ((c : Thread nD τ).loc main_arg5) := W1_main_arg5 m ρ c
theorem V0_main_arg5 (c : Dev nD) : V0 m ρ c main_arg5 = m ((c : Thread nD τ).loc main_arg5) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies, at nothing owed. -/
abbrev R (c : Dev nD) : sProp 𝕄 := iprop((∃ r, prngReg c r) ∗ ∃ W, owes (c : Thread nD τ) (0 : CellTallies nD τ sig Unit) W)
/-- A host stretch as a segment over the unscoped references from the contents W, R riding along: it ends with
    those references at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the launch contents, left at W1. Its
    arrays are split out of the unscoped buffers and put back at the exit contents; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => owed0 (V0 m ρ) c t
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => share0 (V0 m ρ) c w) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hrec : (pdats m ρ 0 c).recorded 0 = Set.univ := recorded0 (V0 m ρ) c _
      unfold Pipeline.Dat.owesAt Pipeline.owesWithin Pipeline.Dat.bound
      rw [show (pdats m ρ 0 c).owed 0 = 0 from owed0 (V0 m ρ) c _, hrec]
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Φ0 (V0 m ρ) c _]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from Φ0 (V0 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => share0 (V0 m ρ) c w)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed0 (V0 m ρ) c _]
    icases HO with ⟨%W, -, HO⟩; iexists W; iexact HO

set_option backward.isDefEq.respectTransparency.types false in
/-- Region 1 over the thread state: entered from every unscoped buffer at W2, left at W3 (what the launch reads at
    the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => share1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hrec : (pdats m ρ 1 c).recorded 0 = Set.univ := recorded1 (V2 m ρ) c _
      unfold Pipeline.Dat.owesAt Pipeline.owesWithin Pipeline.Dat.bound
      rw [show (pdats m ρ 1 c).owed 0 = 0 from owed1 (V2 m ρ) c _, hrec]
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Φ1 (V2 m ρ) c _]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Φ1 (V2 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => share1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ 1 c).owed (Fin.last _) = 0 from owed1 (V2 m ρ) c _]
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and every final memory holds, at each unscoped buffer of each core, the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final memory has each
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩) (run_all m ρ)

/-- The result array on core c: window 5 of region 1 is main_v30, and the region leaves in it that window's array
    with every write-back folded. -/
def resArr (c : Dev nD) : Buf (Elt F) ((c.tc : Thread nD τ).loc main_v30) := (dat1 (V2 m ρ) c).arrAt 5 cfg1.N

/-- The last boundary's contents at main_v30 are the result array. -/
theorem W3_main_v30 (c : Dev nD) : W3 m ρ c (Proc.devRef .tc main_v30) = resArr m ρ c := W3_arr m ρ c 5

/-- THE RUN, the result named: every weakly fair execution of @main terminates, nothing faulting, and every final
    memory holds the result array in main_v30 and each argument array as launched. -/
theorem run_result : θ_run defs (onTc (τ := τ) (main (F := F))) ⟨m, fun _ => 0, ρ⟩ (fun r => ∀ c : Dev nD,
      r.2.mem ((c.tc : Thread nD τ).loc main_v30) = resArr m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c =>
    ⟨(h c _ (mem_uc main_v30 (by decide))).trans (W3_main_v30 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩) (run_all m ρ)

end Cert.KernelIdeal.Hand

end
-- ==== Proof.Spec.lean ====
/-
  The mathematics of one GCN layer with mean aggregation, as two index-by-index formulas over the extended reals.

  Nodes 0..9999 carry 256 features. Each of the 320000 edges e has a source word src e, a destination word dst e
  and a weight ew e. With r0 the feature row that the first edge's source selects,
    message e f  = r0 f * feat (row of src e) f * ew e,
    hm n f       = (sum of message e f over the edges whose destination is n) / max (in-degree of n) 1,
    out n j      = max (sum_k feat n k * W j k + sum_k hm n k * W j (256 + k) + b j) 0.

  outK spells this the way a blocked one-hot evaluation does: the source row as a sum over all nodes of a 0/1 indicator
  times the row, the destination test as a 0/1 factor, the edges taken in 1250 chunks of 256, the common factor r0
  and the reciprocal of the degree multiplied in after the sum. outR spells it the way the plain formula does: the
  source row read directly (a negative word wrapped by the node count, the word then clamped into the table), the
  sum over the edges landing on n, the quotient by the degree, one contraction over the 512 concatenated columns.
-/
import Idealize.ShloMosaic.PureOps.Ideal
import Idealize.ShloMosaic.Lib.ValueIdx

noncomputable section

namespace Cert.Spec

open Idealize.ShloMosaic Idealize.ShloMosaic.ValueIdx

/-- The six argument arrays, read by coordinates. -/
structure Inputs where
  feat : Fin 10000 → Fin 256 → EReal
  ew : Fin 320000 → EReal
  src : Fin 320000 → BitVec 32
  dst : Fin 320000 → BitVec 32
  W : Fin 256 → Fin 512 → EReal
  b : Fin 256 → EReal

/-- The argument arrays as the programs hold them, read by coordinates. -/
def ofArrays (a0 : (⟨2, ![10000, 256]⟩ : Shape).Idx → EReal) (a1 : (⟨1, ![320000]⟩ : Shape).Idx → EReal)
    (a2 a3 : (⟨1, ![320000]⟩ : Shape).Idx → BitVec 32) (a4 : (⟨2, ![256, 512]⟩ : Shape).Idx → EReal)
    (a5 : (⟨1, ![256]⟩ : Shape).Idx → EReal) : Inputs where
  feat n f := a0 (ix2 n f)
  ew e := a1 (ix1 e)
  src e := a2 (ix1 e)
  dst e := a3 (ix1 e)
  W j k := a4 (ix2 j k)
  b j := a5 (ix1 j)

/-- The float word 0x3F800000. -/
def one : EReal := Ideal.ofBits .f32 0x3F800000#32

/-- 1 where the index word w, read signed, is the number n; else 0. -/
def oh (w : BitVec 32) (n : ℕ) : EReal := if w.toInt = (n : ℤ) then 1 else 0

/-- The table row a host read at the word w takes: a negative word is first raised by the node count, and the
    result, read signed, is clamped into 0..9999. -/
def rowOf (w : BitVec 32) : Fin 10000 :=
  ⟨(min (max (if w.toInt < 0 then w + 10000#32 else w).toInt 0) 9999).toNat, by omega⟩

/-- Edge j of chunk t. -/
def edge (t : Fin 1250) (j : Fin 256) : Fin 320000 := ⟨256 * t.val + j.val, by omega⟩

variable (I : Inputs)

/-- The in-degree of node n: one for each edge whose destination word, read signed, is n. -/
def cnt (n : Fin 10000) : EReal := ∑ e : Fin 320000, (if (I.dst e).toInt = (n.val : ℤ) then one else 0)

/-- The divisor of the mean: the in-degree, at least one. -/
def den (n : Fin 10000) : EReal := max (cnt I n) one

/-- The feature row the first edge's source selects. -/
def feat0 (f : Fin 256) : EReal := I.feat (rowOf (I.src ⟨0, by decide⟩)) f

/-! ## The blocked one-hot form -/

/-- The source row of edge e as a sum over all nodes of the indicator times the row. -/
def gathK (e : Fin 320000) (f : Fin 256) : EReal := ∑ n' : Fin 10000, oh (I.src e) n'.val * I.feat n' f

/-- What chunk t adds to node n. -/
def partK (t : Fin 1250) (n : Fin 10000) (f : Fin 256) : EReal :=
  ∑ j : Fin 256, oh (I.dst (edge t j)) n.val * (gathK I (edge t j) f * I.ew (edge t j))

/-- The weighted sum over the edges into n, chunk by chunk. -/
def sumsK (n : Fin 10000) (f : Fin 256) : EReal := ∑ t : Fin 1250, partK I t n f

/-- The mean message, the common factor and the reciprocal degree multiplied in after the sum. -/
def hmK (n : Fin 10000) (f : Fin 256) : EReal := feat0 I f * sumsK I n f * Ideal.div one (den I n)

/-- The layer's output, the two halves of the weight matrix contracted separately. -/
def outK (n : Fin 10000) (j : Fin 256) : EReal :=
  max ((∑ k : Fin 256, I.feat n k * I.W j ⟨k.val, by omega⟩)
        + (∑ k : Fin 256, hmK I n k * I.W j ⟨256 + k.val, by omega⟩) + I.b j) 0

/-! ## The plain form -/

/-- The message of edge e. -/
def msgR (e : Fin 320000) (f : Fin 256) : EReal := feat0 I f * I.feat (rowOf (I.src e)) f * I.ew e

/-- The sum of the messages of the edges whose destination word, read signed, is n. -/
def sumsR (n : Fin 10000) (f : Fin 256) : EReal :=
  ∑ e : Fin 320000, (if (I.dst e).toInt = (n.val : ℤ) then msgR I e f else 0)

/-- The mean message. -/
def hmR (n : Fin 10000) (f : Fin 256) : EReal := Ideal.div (sumsR I n f) (den I n)

/-- Column k of the concatenation of the features and the mean messages. -/
def xR (n : Fin 10000) (k : Fin 512) : EReal :=
  if h : k.val < 256 then I.feat n ⟨k.val, h⟩ else hmR I n ⟨k.val - 256, by omega⟩

/-- The layer's output, one contraction over the 512 columns. -/
def outR (n : Fin 10000) (j : Fin 256) : EReal := max ((∑ k : Fin 512, xR I n k * I.W j k) + I.b j) 0

end Cert.Spec

end
-- ==== Proof.KIPay0.lean ====
/- The two values the edge kernel stores, read at an index over the extended reals: the first is zero everywhere;
   the second adds, to the block it reads back, the chunk's 256 edges: for each edge the destination's 0/1 indicator
   times the source row (a sum over all nodes of the source's 0/1 indicator times the row) times the edge's weight. -/
import proofs.«418778_j10660108829138_1_alg».proof.Proof.Gen.KernelIdeal.Skeleton
import proofs.«418778_j10660108829138_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.WordArith
import Idealize.ShloMosaic.PureOps.Ideal.Laws

noncomputable section

namespace Cert.KernelIdeal.Hand

open Idealize.ShloMosaic Idealize.ShloMosaic.ValueIdx
open Cert.KernelIdeal Cert.KernelIdeal.Gen

/-! ## The 0/1 indicator of a word against a node number -/

/-- The comparison of node number n, as a word, with the word w, widened and converted signed, is the indicator of
    "w read signed is n": a node number is below 2³¹, so it reads signed as itself, and a word is determined by its
    signed reading. -/
theorem onehot_word (w : BitVec 32) (n : ℕ) (hn : n < 10000) :
    (FloatOps.sitofp (F := Ideal) .f32 ((IntOp.cmpi .eq (BitVec.ofNat 32 n) w).setWidth 32) : EReal) = Cert.Spec.oh w n := by
  show ((((IntOp.cmpi .eq (BitVec.ofNat 32 n) w).setWidth 32).toInt : ℝ) : EReal) = _
  rw [toInt_setWidth_bit]
  unfold Cert.Spec.oh
  have hn' : (BitVec.ofNat 32 n).toInt = (n : ℤ) := WordArith.toInt_ofNat_small n (by omega)
  by_cases h : BitVec.ofNat 32 n = w
  · subst h
    have hc : IntOp.cmpi .eq (BitVec.ofNat 32 n) (BitVec.ofNat 32 n) = 1#1 := by simp [IntOp.cmpi]
    rw [if_pos hn', hc]
    simp
  · have hc : IntOp.cmpi .eq (BitVec.ofNat 32 n) w = 0#1 := by
      show BitVec.ofBool (BitVec.ofNat 32 n == w) = 0#1
      rw [beq_false_of_ne h]
      rfl
    rw [hc, if_neg (fun hw => h (BitVec.eq_of_toInt_eq (hn'.trans hw.symm)))]
    simp

/-! ## A vector laid out as a column, and the column repeated -/

variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector as a column, repeated along the rows: entry (p, c) is the vector's entry p. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

/-- A vector as a row, repeated along the columns: entry (p, c) is the vector's entry c. -/
theorem row_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-! ## The two products -/

theorem lhs_gather_0 (i : S256x256.Idx) (q : dot_S256x10000_S10000x256_S256x256_1_0_0_1_n_n.contr.Idx) :
    (dot_S256x10000_S10000x256_S256x256_1_0_0_1_n_n.lhsIdx i q 0).val = (i 0).val := by
  unfold DotDims.lhsIdx
  rw [dif_neg (show ¬(0 : Fin S256x10000.rank) ∈ dot_S256x10000_S10000x256_S256x256_1_0_0_1_n_n.lhsBatch by decide), dif_pos (show (0 : Fin S256x10000.rank) ∈ dot_S256x10000_S10000x256_S256x256_1_0_0_1_n_n.lhsNonContracting by decide)]
  rfl
theorem lhs_gather_1 (i : S256x256.Idx) (q : dot_S256x10000_S10000x256_S256x256_1_0_0_1_n_n.contr.Idx) :
    (dot_S256x10000_S10000x256_S256x256_1_0_0_1_n_n.lhsIdx i q 1).val = (q ⟨0, by decide⟩).val :=
  dot_S256x10000_S10000x256_S256x256_1_0_0_1_n_n.lhsIdx_val_of_single rfl i q
theorem rhs_gather_0 (i : S256x256.Idx) (q : dot_S256x10000_S10000x256_S256x256_1_0_0_1_n_n.contr.Idx) :
    (dot_S256x10000_S10000x256_S256x256_1_0_0_1_n_n.rhsIdx i q 0).val = (q ⟨0, by decide⟩).val :=
  dot_S256x10000_S10000x256_S256x256_1_0_0_1_n_n.rhsIdx_val_of_single rfl i q
theorem rhs_gather_1 (i : S256x256.Idx) (q : dot_S256x10000_S10000x256_S256x256_1_0_0_1_n_n.contr.Idx) :
    (dot_S256x10000_S10000x256_S256x256_1_0_0_1_n_n.rhsIdx i q 1).val = (i 1).val := by
  unfold DotDims.rhsIdx
  rw [dif_neg (show ¬(1 : Fin S10000x256.rank) ∈ dot_S256x10000_S10000x256_S256x256_1_0_0_1_n_n.rhsBatch by decide), dif_pos (show (1 : Fin S10000x256.rank) ∈ dot_S256x10000_S10000x256_S256x256_1_0_0_1_n_n.rhsNonContracting by decide)]
  rfl

/-- The first product onto zero, at (j, f): the sum over the 10000 nodes of row j of the left factor times column f
    of the right one. -/
theorem gather_matmul_apply (A : FVec Ideal S256x10000 .bf16) (B : FVec Ideal S10000x256 .bf16) (j f : Fin 256) :
    matmul dot_S256x10000_S10000x256_S256x256_1_0_0_1_n_n none A B (constant (F := Ideal) S256x256 .f32 0x00000000#32) (ix2 j f)
      = ∑ n' : Fin 10000, A (ix2 j n') * B (ix2 n' f) := by
  show FloatOps.matmul dot_S256x10000_S10000x256_S256x256_1_0_0_1_n_n none A B (constant (F := Ideal) S256x256 .f32 0x00000000#32) (ix2 j f) = _
  rw [Ideal.matmul_constant_zero_apply, ← Equiv.sum_comp (ValueIdx.contrEquiv1 dot_S256x10000_S10000x256_S256x256_1_0_0_1_n_n 10000 rfl rfl).symm]
  refine Finset.sum_congr rfl fun k _ => ?_
  have hk := ValueIdx.contrEquiv1_symm_val dot_S256x10000_S10000x256_S256x256_1_0_0_1_n_n 10000 rfl rfl k
  have el : dot_S256x10000_S10000x256_S256x256_1_0_0_1_n_n.lhsIdx (ix2 j f) ((ValueIdx.contrEquiv1 dot_S256x10000_S10000x256_S256x256_1_0_0_1_n_n 10000 rfl rfl).symm k) = ix2 j k := funext fun a => Fin.ext (by
    match a with
    | ⟨0, _⟩ => exact lhs_gather_0 _ _
    | ⟨1, _⟩ => exact (lhs_gather_1 _ _).trans hk)
  have er : dot_S256x10000_S10000x256_S256x256_1_0_0_1_n_n.rhsIdx (ix2 j f) ((ValueIdx.contrEquiv1 dot_S256x10000_S10000x256_S256x256_1_0_0_1_n_n 10000 rfl rfl).symm k) = ix2 k f := funext fun a => Fin.ext (by
    match a with
    | ⟨0, _⟩ => exact (rhs_gather_0 _ _).trans hk
    | ⟨1, _⟩ => exact rhs_gather_1 _ _)
  rw [el, er]

theorem lhs_scatter_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhs_scatter_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_scatter_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_scatter_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- The second product onto zero, at (n, f): the sum over the chunk's 256 edges of row n of the left factor times
    column f of the right one. -/
theorem scatter_matmul_apply (A : FVec Ideal S10000x256 .bf16) (B : FVec Ideal S256x256 .bf16) (n : Fin 10000) (f : Fin 256) :
    matmul dot_S10000x256_S256x256_S10000x256_1_0_0_1_n_n none A B (constant (F := Ideal) S10000x256 .f32 0x00000000#32) (ix2 n f)
      = ∑ j : Fin 256, A (ix2 n j) * B (ix2 j f) := by
  show FloatOps.matmul dot_S10000x256_S256x256_S10000x256_1_0_0_1_n_n none A B (constant (F := Ideal) S10000x256 .f32 0x00000000#32) (ix2 n f) = _
  rw [Ideal.matmul_constant_zero_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx (ix2 n f) ((ValueIdx.contrEquiv1 dot_S10000x256_S256x256_S10000x256_1_0_0_1_n_n 256 rfl rfl).symm k) = ix2 n k := funext fun a => Fin.ext (by
    match a with
    | ⟨0, _⟩ => exact lhs_scatter_0 _ _
    | ⟨1, _⟩ => exact (lhs_scatter_1 _ _).trans hk)
  have er : dot_S10000x256_S256x256_S10000x256_1_0_0_1_n_n.rhsIdx (ix2 n f) ((ValueIdx.contrEquiv1 dot_S10000x256_S256x256_S10000x256_1_0_0_1_n_n 256 rfl rfl).symm k) = ix2 k f := funext fun a => Fin.ext (by
    match a with
    | ⟨0, _⟩ => exact (rhs_scatter_0 _ _).trans hk
    | ⟨1, _⟩ => exact rhs_scatter_1 _ _)
  rw [el, er]

/-! ## The payloads -/

/-- The first stored value is zero at every index. -/
theorem pay1_apply (n : Fin 10000) (f : Fin 256) : k0_pay1 (F := Ideal) (ix2 n f) = 0 := by
  unfold k0_pay1
  show Ideal.ofBits .f32 0x00000000#32 = 0
  exact Ideal.ofBits_zero_f32

/-- The source indicator the kernel builds, at (j, n'): 1 where edge j's source word, read signed, is n'. -/
theorem src_onehot_apply (v3 : Vec Ideal S256 .i32) (j : Fin 256) (n' : Fin 10000) :
    (truncf .bf16 (sitofp (F := Ideal) .f32 (extui 32 (cmpi .eq (iota .tc S256x10000 32 [1] iota_S256x10000_d1_w32)
      (broadcastTo S256x10000 (shapeCast S256x1 v3 shapeCasts_S256_S256x1) broadcasts_S256x1_S256x10000)) natLt_1_32)) bitsLt_bf16_f32
      : FVec Ideal S256x10000 .bf16) (ix2 j n') = Cert.Spec.oh (v3 (ix1 j)) n'.val := by
  rw [truncf_apply, sitofp_apply, extui_apply]
  show FloatOps.sitofp (F := Ideal) .f32 ((IntOp.cmpi .eq (iota .tc S256x10000 32 [1] iota_S256x10000_d1_w32 (ix2 j n'))
      (broadcastTo S256x10000 (shapeCast S256x1 v3 shapeCasts_S256_S256x1) broadcasts_S256x1_S256x10000 (ix2 j n'))).setWidth 32) = _
  rw [iota_single_apply, column_apply]
  exact onehot_word _ _ n'.isLt

/-- The destination indicator the kernel builds, at (n, j): 1 where edge j's destination word, read signed, is n. -/
theorem dst_onehot_apply (v4 : Vec Ideal S256 .i32) (n : Fin 10000) (j : Fin 256) :
    (truncf .bf16 (sitofp (F := Ideal) .f32 (extui 32 (cmpi .eq (iota .tc S10000x256 32 [0] iota_S10000x256_d0_w32)
      (broadcastTo S10000x256 (shapeCast S1x256 v4 shapeCasts_S256_S1x256) broadcasts_S1x256_S10000x256)) natLt_1_32)) bitsLt_bf16_f32
      : FVec Ideal S10000x256 .bf16) (ix2 n j) = Cert.Spec.oh (v4 (ix1 j)) n.val := by
  rw [truncf_apply, sitofp_apply, extui_apply]
  show FloatOps.sitofp (F := Ideal) .f32 ((IntOp.cmpi .eq (iota .tc S10000x256 32 [0] iota_S10000x256_d0_w32 (ix2 n j))
      (broadcastTo S10000x256 (shapeCast S1x256 v4 shapeCasts_S256_S1x256) broadcasts_S1x256_S10000x256 (ix2 n j))).setWidth 32) = _
  rw [iota_single_apply, row_apply]
  exact onehot_word _ _ n.isLt

/-- The second stored value at (n, f): what was read back, plus the chunk's contribution. -/
theorem pay2_apply (v3 v4 : Vec Ideal S256 .i32) (v5 : Vec Ideal S256 .f32) (v13 v28 : Vec Ideal S10000x256 .f32)
    (n : Fin 10000) (f : Fin 256) :
    k0_pay2 (F := Ideal) v3 v4 v5 v13 v28 (ix2 n f)
      = v28 (ix2 n f) + ∑ j : Fin 256, Cert.Spec.oh (v4 (ix1 j)) n.val
          * ((∑ n' : Fin 10000, Cert.Spec.oh (v3 (ix1 j)) n'.val * v13 (ix2 n' f)) * v5 (ix1 j)) := by
  unfold k0_pay2
  rw [addf_apply, shapeCast_self, scatter_matmul_apply]
  refine congrArg (v28 (ix2 n f) + ·) (Finset.sum_congr rfl fun j _ => ?_)
  rw [dst_onehot_apply, truncf_apply, mulf_apply, gather_matmul_apply, column_apply]
  refine congrArg (fun z => Cert.Spec.oh (v4 (ix1 j)) n.val * (z * v5 (ix1 j))) (Finset.sum_congr rfl fun n' _ => ?_)
  rw [src_onehot_apply, truncf_apply]

end Cert.KernelIdeal.Hand

end
-- ==== Proof.KIValue0.lean ====
/- Region 0's value over the extended reals. The four input windows read, at point t, the whole feature table and
   edges 256 t … 256 t + 255 of the source, destination and weight arrays; so the body adds to the output block, at
   point t, what chunk t adds to each node, and after point n the block holds the sum of chunks 0 … n. The output
   window's one block is the whole array, written back after the last point only: the array ends holding the sum of
   all 1250 chunks. -/
import proofs.«418778_j10660108829138_1_alg».proof.Proof.KIR0
import proofs.«418778_j10660108829138_1_alg».proof.Proof.KIPay0
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The argument arrays as the region finds them, read by coordinates. -/
abbrev inputs0 (c : Dev nD) : Cert.Spec.Inputs :=
  Cert.Spec.ofArrays (V c main_arg0) (V c main_arg1) (V c main_arg2) (V c main_arg3) (V c main_arg4) (V c main_arg5)

/-! ## The blocks the windows read -/

/-- The block index of each window at each point: the feature table's and the output's block never moves, the three
    edge windows are on block t at point t. -/
theorem index0 : ∀ t : Fin cfg0.N, win0_0.index t 0 = 0 ∧ win0_0.index t 1 = 0 ∧ win0_1.index t 0 = t.val
    ∧ win0_2.index t 0 = t.val ∧ win0_3.index t 0 = t.val ∧ win0_4.index t 0 = 0 ∧ win0_4.index t 1 = 0 :=
  (by decide +kernel : ∀ t : Fin grid0.N, win0_0.index t 0 = 0 ∧ win0_0.index t 1 = 0 ∧ win0_1.index t 0 = t.val
    ∧ win0_2.index t 0 = t.val ∧ win0_3.index t 0 = t.val ∧ win0_4.index t 0 = 0 ∧ win0_4.index t 1 = 0)

/-- Window 0's block at any point is the feature table. -/
theorem iblk0_feat (c : Dev nD) (t : Fin cfg0.N) (n : Fin 10000) (f : Fin 256) :
    iblk0 V c 0 t (ix2 n f) = V c main_arg0 (ix2 n f) := by
  unfold iblk0
  rw [View.read_apply]
  show V c main_arg0 (((cfg0.win 0).blk t).view.emb (ix2 n f)) = V c main_arg0 (ix2 n f)
  refine congrArg (V c main_arg0) (funext fun a => Fin.ext ?_)
  match a with
  | ⟨0, _⟩ => show win0_0.index t 0 * 10000 + 1 * n.val = n.val; rw [(index0 t).1]; omega
  | ⟨1, _⟩ => show win0_0.index t 1 * 256 + 1 * f.val = f.val; rw [(index0 t).2.1]; omega

/-- Window 1's block at point t is the source words of chunk t's edges. -/
theorem iblk0_src (c : Dev nD) (t : Fin cfg0.N) (ht : t.val < 1250) (j : Fin 256) :
    iblk0 V c 1 t (ix1 j) = V c main_arg2 (ix1 (Cert.Spec.edge ⟨t.val, ht⟩ j)) := by
  unfold iblk0
  rw [View.read_apply]
  show V c main_arg2 (((cfg0.win 1).blk t).view.emb (ix1 j)) = V c main_arg2 (ix1 (Cert.Spec.edge ⟨t.val, ht⟩ j))
  refine congrArg (V c main_arg2) (funext fun a => Fin.ext ?_)
  match a with
  | ⟨0, _⟩ => show win0_1.index t 0 * 256 + 1 * j.val = 256 * t.val + j.val; rw [(index0 t).2.2.1]; omega

/-- Window 2's block at point t is the destination words of chunk t's edges. -/
theorem iblk0_dst (c : Dev nD) (t : Fin cfg0.N) (ht : t.val < 1250) (j : Fin 256) :
    iblk0 V c 2 t (ix1 j) = V c main_arg3 (ix1 (Cert.Spec.edge ⟨t.val, ht⟩ j)) := by
  unfold iblk0
  rw [View.read_apply]
  show V c main_arg3 (((cfg0.win 2).blk t).view.emb (ix1 j)) = V c main_arg3 (ix1 (Cert.Spec.edge ⟨t.val, ht⟩ j))
  refine congrArg (V c main_arg3) (funext fun a => Fin.ext ?_)
  match a with
  | ⟨0, _⟩ => show win0_2.index t 0 * 256 + 1 * j.val = 256 * t.val + j.val; rw [(index0 t).2.2.2.1]; omega

/-- Window 3's block at point t is the weights of chunk t's edges. -/
theorem iblk0_ew (c : Dev nD) (t : Fin cfg0.N) (ht : t.val < 1250) (j : Fin 256) :
    iblk0 V c 3 t (ix1 j) = V c main_arg1 (ix1 (Cert.Spec.edge ⟨t.val, ht⟩ j)) := by
  unfold iblk0
  rw [View.read_apply]
  show V c main_arg1 (((cfg0.win 3).blk t).view.emb (ix1 j)) = V c main_arg1 (ix1 (Cert.Spec.edge ⟨t.val, ht⟩ j))
  refine congrArg (V c main_arg1) (funext fun a => Fin.ext ?_)
  match a with
  | ⟨0, _⟩ => show win0_3.index t 0 * 256 + 1 * j.val = 256 * t.val + j.val; rw [(index0 t).2.2.2.2.1]; omega

/-! ## What the output block holds after each point -/

/-- Over blocks of the literal types that read the arrays as the windows do at point t, the body's sum is what
    chunk t adds to node n. -/
theorem chunk_eq (c : Dev nD) (t : Fin 1250) (v3 v4 : Vec Ideal S256 .i32) (v5 : Vec Ideal S256 .f32) (v13 : Vec Ideal S10000x256 .f32)
    (h3 : ∀ j : Fin 256, v3 (ix1 j) = V c main_arg2 (ix1 (Cert.Spec.edge t j)))
    (h4 : ∀ j : Fin 256, v4 (ix1 j) = V c main_arg3 (ix1 (Cert.Spec.edge t j)))
    (h5 : ∀ j : Fin 256, v5 (ix1 j) = V c main_arg1 (ix1 (Cert.Spec.edge t j)))
    (h13 : ∀ (n' : Fin 10000) (f : Fin 256), v13 (ix2 n' f) = V c main_arg0 (ix2 n' f))
    (n : Fin 10000) (f : Fin 256) :
    (∑ j : Fin 256, Cert.Spec.oh (v4 (ix1 j)) n.val * ((∑ n' : Fin 10000, Cert.Spec.oh (v3 (ix1 j)) n'.val * v13 (ix2 n' f)) * v5 (ix1 j)))
      = Cert.Spec.partK (inputs0 V c) t n f := by
  unfold Cert.Spec.partK Cert.Spec.gathK
  refine Finset.sum_congr rfl fun j _ => ?_
  rw [h3 j, h4 j, h5 j]
  refine congrArg (fun z => _ * (z * _)) (Finset.sum_congr rfl fun n' _ => ?_)
  rw [h13 n' f]
  rfl

/-- After point n the output block holds, at node and feature, the sum of what chunks 0 … n add. -/
theorem outsAt0_eq (c : Dev nD) (node : Fin 10000) (f : Fin 256) : ∀ (n : ℕ) (hn : n < cfg0.N),
    outsAt0 V c n hn (ix2 node f)
      = ∑ t ∈ Finset.range (n + 1), if h : t < 1250 then Cert.Spec.partK (inputs0 V c) ⟨t, h⟩ node f else 0
  | 0, hn => by
    have h0 : (0 : ℕ) < 1250 := by decide
    rw [outsAt0_zero]
    refine (pay2_apply _ _ _ _ _ node f).trans ?_
    rw [pay1_apply, zero_add, Finset.sum_range_one, dif_pos h0]
    exact chunk_eq V c ⟨0, h0⟩ _ _ _ _ (iblk0_src V c ⟨0, hn⟩ h0) (iblk0_dst V c ⟨0, hn⟩ h0) (iblk0_ew V c ⟨0, hn⟩ h0)
      (iblk0_feat V c ⟨0, hn⟩) node f
  | n + 1, hn => by
    have h1 : n + 1 < 1250 := (N_0 : cfg0.N = 1250) ▸ hn
    rw [outsAt0_succ]
    refine (pay2_apply _ _ _ _ _ node f).trans ?_
    rw [outsAt0_eq c node f n (Nat.lt_of_succ_lt hn), Finset.sum_range_succ _ (n + 1), dif_pos h1]
    exact congrArg (_ + ·) (chunk_eq V c ⟨n + 1, h1⟩ _ _ _ _ (iblk0_src V c ⟨n + 1, hn⟩ h1) (iblk0_dst V c ⟨n + 1, hn⟩ h1)
      (iblk0_ew V c ⟨n + 1, hn⟩ h1) (iblk0_feat V c ⟨n + 1, hn⟩) node f)

/-! ## The array after the region -/

theorem last_lt0 : 1249 < cfg0.N := by rw [show cfg0.N = 1250 from N_0]; decide

/-- The last point. -/
abbrev tLast0 : Fin cfg0.N := ⟨1249, last_lt0⟩

/-- What the output block holds after the last point, as contents of the output array (its one block is the array). -/
abbrev result0 (c : Dev nD) : Buf (Elt Ideal) ((c : Thread nD τ).loc main_v0) := outsAt0 V c 1249 last_lt0

/-- What the block holds after a point depends on the point's number only. -/
theorem outsAt0_congr (c : Dev nD) {n n' : ℕ} (e : n = n') (h : n < cfg0.N) (h' : n' < cfg0.N) :
    outsAt0 V c n h = outsAt0 V c n' h' := by
  subst e; rfl

/-- Read through the output window at block index (0, 0), an array's entry at a block index is its entry at the same
    index: what a write-back of a block holding G writes is G's block. -/
theorem blk0_4_read (t : Fin cfg0.N) (G : Vec Ideal S10000x256 .f32) :
    (cfg0.win 4).cut (grid0.coords t) G = ((cfg0.win 4).blk t).view.read (Elt Ideal) G := by
  obtain ⟨-, -, -, -, -, e0, e1⟩ := index0 t
  funext j
  show G ((cfg0.win 4).xinj (grid0.coords t) j) = G (((cfg0.win 4).blk t).view.emb j)
  refine congrArg G (funext fun a => Fin.ext ?_)
  match a with
  | ⟨0, _⟩ => show (j 0).val = win0_4.index t (0 : Fin 2) * 10000 + 1 * (j 0).val; omega
  | ⟨1, _⟩ => show (j 1).val = win0_4.index t (1 : Fin 2) * 256 + 1 * (j 1).val; omega

/-- The one write-back is at the last point, and writes the block that point left. -/
theorem flushed0_eq (c : Dev nD) (t : Fin cfg0.N) (hf : (cfg0.win 4).flush t = true) :
    (dat0 V c).flushed 4 t = ((cfg0.win 4).blk t).view.read (Elt Ideal) (result0 V c) := by
  have hN : cfg0.N = 1250 := N_0
  have hl : t.val = 1249 := by have := (flush0_4 t).mp hf; have := t.isLt; omega
  show (cfg0.win 4).cut (grid0.coords t) ((dat0 V c).after 4 t) = _
  rw [after0_4, outsAt0_congr V c hl t.isLt last_lt0]
  exact blk0_4_read t _

/-- An index of the array is in point t's output block iff each coordinate is in the block's range on its axis. -/
theorem mem_blk0_4 (t : Fin cfg0.N) (i : S10000x256.Idx) :
    i ∈ ((cfg0.win 4).blk t).view.set ↔ ∀ a : Fin 2, win0_4.index t a * S10000x256.size a ≤ (i a).val ∧ (i a).val < win0_4.index t a * S10000x256.size a + S10000x256.size a := by
  show i ∈ ((View.whole main_v0).slice (win0_4.rect t)).set ↔ _
  rw [View.set_slice_whole, Rect.mem_set_unit]
  exact Iff.rfl

/-- The output block at any point is the whole array. -/
theorem mem_blk0_4_all (t : Fin cfg0.N) (i : S10000x256.Idx) : i ∈ ((cfg0.win 4).blk t).view.set := by
  rw [mem_blk0_4]
  obtain ⟨-, -, -, -, -, e0, e1⟩ := index0 t
  have hi0 : (i 0).val < 10000 := (i 0).isLt
  have hi1 : (i 1).val < 256 := (i 1).isLt
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 256 ≤ (i 1).val ∧ (i 1).val < win0_4.index t (1 : Fin 2) * 256 + 256; omega

/-- Every index of the array is in the last point's block, which is written back. -/
theorem covered0_4 (i : S10000x256.Idx) : ∃ t : Fin cfg0.N, (cfg0.win 4).flush t = true ∧ i ∈ ((cfg0.win 4).blk t).view.set :=
  ⟨tLast0, (flush0_4 tLast0).mpr rfl, mem_blk0_4_all tLast0 i⟩

/-- So the output array ends holding what the block held after the last point. -/
theorem final0 (c : Dev nD) : (dat0 V c).arrAt 4 cfg0.N = result0 V c :=
  (dat0 V c).arrAt_eq_of_cover 4 (result0 V c) (flushed0_eq V c) covered0_4

/-- The output array after the region, at node n and feature f: the weighted sum over the edges into n, chunk by chunk. -/
theorem sums_final (c : Dev nD) (n : Fin 10000) (f : Fin 256) :
    (dat0 (F := Ideal) V c).arrAt 4 cfg0.N (ix2 n f)
      = Cert.Spec.sumsK (Cert.Spec.ofArrays (V c main_arg0) (V c main_arg1) (V c main_arg2) (V c main_arg3) (V c main_arg4) (V c main_arg5)) n f := by
  rw [final0]
  show outsAt0 V c 1249 last_lt0 (ix2 n f) = _
  rw [outsAt0_eq]
  show ∑ t ∈ Finset.range 1250, (if h : t < 1250 then Cert.Spec.partK (inputs0 V c) ⟨t, h⟩ n f else 0) = ∑ t : Fin 1250, Cert.Spec.partK (inputs0 V c) t n f
  rw [Finset.sum_range]
  exact Finset.sum_congr rfl fun t _ => dif_pos t.isLt

end Cert.KernelIdeal.Hand

end
-- ==== Proof.KIPay1.lean ====
/- Region 1's payload read at an index, at the ideal values: row r, column j of the stored block is
   max (Σ_k x0[r,k] · w0[k,j] + Σ_k x1[r,k] · w1[k,j] + b[0,j]) 0. The narrowing to bf16 is the identity there, each
   matrix product onto the zero constant is the plain sum over the contraction coordinate, and the bias row is
   broadcast over the rows. -/
import proofs.«418778_j10660108829138_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Idealize.SL.Sem
open Cert.KernelIdeal Cert.KernelIdeal.Gen

/-! ## The operand indices of the 2000x256 by 256x256 product, axis by axis -/

theorem lhs_apply1_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_apply1_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_apply1_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_apply1_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product onto the zero constant, at row r and column j: the sum over the contraction coordinate. -/
theorem matmul1_apply (a : FVec Ideal S2000x256 .bf16) (b : FVec Ideal S256x256 .bf16) (r : Fin 2000) (j : Fin 256) :
    matmul dot_S2000x256_S256x256_S2000x256_1_0_0_1_n_n none a b (constant (F := Ideal) S2000x256 .f32 0x00000000#32) (ix2 r j)
      = ∑ k : Fin 256, a (ix2 r k) * b (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k := funext fun a => Fin.ext (by
    match a with
    | ⟨0, _⟩ => exact lhs_apply1_0 _ _
    | ⟨1, _⟩ => exact (lhs_apply1_1 _ _).trans hk)
  have er : dot_S2000x256_S256x256_S2000x256_1_0_0_1_n_n.rhsIdx (ix2 r j) ((contrEquiv1 dot_S2000x256_S256x256_S2000x256_1_0_0_1_n_n 256 rfl rfl).symm k) = ix2 k j := funext fun a => Fin.ext (by
    match a with
    | ⟨0, _⟩ => exact (rhs_apply1_0 _ _).trans hk
    | ⟨1, _⟩ => exact rhs_apply1_1 _ _)
  rw [el, er]

/-- The payload at row r and column j. -/
theorem k1_pay1_apply (v0 v2 : Vec Ideal S2000x256 .f32) (v5 v8 : Vec Ideal S256x256 .f32) (v14 : Vec Ideal S1x256 .f32) (r : Fin 2000) (j : Fin 256) :
    k1_pay1 (F := Ideal) v0 v2 v5 v8 v14 (ix2 r j) = max ((∑ k : Fin 256, v0 (ix2 r k) * v5 (ix2 k j)) + (∑ k : Fin 256, v2 (ix2 r k) * v8 (ix2 k j)) + v14 (ix2 0 j)) 0 := by
  unfold k1_pay1
  rw [maximumf_apply, addf_apply, addf_apply, matmul1_apply, matmul1_apply, broadcast_apply]
  simp only [shapeCast_self, truncf_apply]
  rw [broadcastTo_1b_ab_apply]
  show max _ (Ideal.ofBits .f32 0x00000000#32) = _
  rw [Ideal.ofBits_zero_f32]

end Cert.KernelIdeal.Hand

end
-- ==== Proof.KIValue1.lean ====
/- Region 1's output array after the region, at the ideal values: row n, column j holds
   max (Σ_k X[n,k] · W0[k,j] + Σ_k M[n,k] · W1[k,j] + b[0,j]) 0, where X, M, W0, W1, b are the region's five input arrays
   as it finds them. Point t of the grid writes rows 2000t .. 2000t+1999; row n is written by point n / 2000. -/
import proofs.«418778_j10660108829138_1_alg».proof.Proof.KIR1
import proofs.«418778_j10660108829138_1_alg».proof.Proof.KIPay1
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hzBlk1 : (![0, 0] : Fin 2 → Nat) = fun _ => 0 := funext fun a => by fin_cases a <;> rfl

/-- The printed index maps over the grid: the two row-tiled inputs and the output are at block (t, 0) at point t, the
    two weight matrices and the bias row at block (0, 0) throughout. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row n, column j of the result, from the five arrays. -/
def row1 (a0 a1 : S10000x256.Idx → EReal) (w0 w1 : S256x256.Idx → EReal) (b : S1x256.Idx → EReal) (n : Fin 10000) (j : Fin 256) : EReal :=
  max ((∑ k : Fin 256, a0 (ix2 n k) * w0 (ix2 k j)) + (∑ k : Fin 256, a1 (ix2 n k) * w1 (ix2 k j)) + b (ix2 (0 : Fin 1) j)) 0

/-- The whole result array. -/
def G1 (a0 a1 : S10000x256.Idx → EReal) (w0 w1 : S256x256.Idx → EReal) (b : S1x256.Idx → EReal) : S10000x256.Idx → EReal :=
  fun i => row1 a0 a1 w0 w1 b ⟨(i 0).val, idx2_lt0 i⟩ ⟨(i 1).val, idx2_lt1 i⟩

/-- The output block after the body, at row r and column j of the block. -/
theorem out1_5_apply (x0 x1 : Vec Ideal S2000x256 .f32) (x2 x3 : Vec Ideal S256x256 .f32) (x4 : Vec Ideal S1x256 .f32) (r : Fin 2000) (j : Fin 256) :
    out1_5 (F := Ideal) x0 x1 x2 x3 x4 (ix2 r j)
      = max ((∑ k : Fin 256, x0 (ix2 r k) * x2 (ix2 k j)) + (∑ k : Fin 256, x1 (ix2 r k) * x3 (ix2 k j)) + x4 (ix2 0 j)) 0 := by
  unfold out1_5
  rw [View.canon_unit_zero hzBlk1]
  exact k1_pay1_apply x0 x1 x2 x3 x4 r j

/-! ## Each input block read where the array has it: a block's coordinate is index × size + 1 × the coordinate inside -/

theorem iblk1_0_apply (c : Dev nD) (t : Fin cfg1.N) (p : Fin 2000) (k : Fin 256) (n : Fin 10000) (hn : n.val = t.val * 2000 + p.val) :
    iblk1 V c 0 t (ix2 p k) = V c main_arg0 (ix2 n k) := by
  obtain ⟨e0, e1, -⟩ := idx_facts1 t
  show V c main_arg0 (((cfg1.win 0).blk t).view.emb (ix2 p k)) = V c main_arg0 (ix2 n k)
  congr 1
  funext a
  apply Fin.ext
  match a with
  | ⟨0, _⟩ => show win1_0.index t (0 : Fin 2) * 2000 + 1 * p.val = n.val; rw [e0, hn]; omega
  | ⟨1, _⟩ => show win1_0.index t (1 : Fin 2) * 256 + 1 * k.val = k.val; rw [e1]; omega

theorem iblk1_1_apply (c : Dev nD) (t : Fin cfg1.N) (p : Fin 2000) (k : Fin 256) (n : Fin 10000) (hn : n.val = t.val * 2000 + p.val) :
    iblk1 V c 1 t (ix2 p k) = V c main_v24 (ix2 n k) := by
  obtain ⟨-, -, e0, e1, -⟩ := idx_facts1 t
  show V c main_v24 (((cfg1.win 1).blk t).view.emb (ix2 p k)) = V c main_v24 (ix2 n k)
  congr 1
  funext a
  apply Fin.ext
  match a with
  | ⟨0, _⟩ => show win1_1.index t (0 : Fin 2) * 2000 + 1 * p.val = n.val; rw [e0, hn]; omega
  | ⟨1, _⟩ => show win1_1.index t (1 : Fin 2) * 256 + 1 * k.val = k.val; rw [e1]; omega

theorem iblk1_2_apply (c : Dev nD) (t : Fin cfg1.N) (k : Fin 256) (q : Fin 256) :
    iblk1 V c 2 t (ix2 k q) = V c main_v27 (ix2 k q) := by
  obtain ⟨-, -, -, -, e0, e1, -⟩ := idx_facts1 t
  show V c main_v27 (((cfg1.win 2).blk t).view.emb (ix2 k q)) = V c main_v27 (ix2 k q)
  congr 1
  funext a
  apply Fin.ext
  match a with
  | ⟨0, _⟩ => show win1_2.index t (0 : Fin 2) * 256 + 1 * k.val = k.val; rw [e0]; omega
  | ⟨1, _⟩ => show win1_2.index t (1 : Fin 2) * 256 + 1 * q.val = q.val; rw [e1]; omega

theorem iblk1_3_apply (c : Dev nD) (t : Fin cfg1.N) (k : Fin 256) (q : Fin 256) :
    iblk1 V c 3 t (ix2 k q) = V c main_v28 (ix2 k q) := by
  obtain ⟨-, -, -, -, -, -, e0, e1, -⟩ := idx_facts1 t
  show V c main_v28 (((cfg1.win 3).blk t).view.emb (ix2 k q)) = V c main_v28 (ix2 k q)
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * q.val = q.val; rw [e1]; omega

theorem iblk1_4_apply (c : Dev nD) (t : Fin cfg1.N) (q : Fin 256) :
    iblk1 V c 4 t (ix2 (0 : Fin 1) q) = V c main_v29 (ix2 (0 : Fin 1) q) := by
  obtain ⟨-, -, -, -, -, -, -, -, e0, e1, -⟩ := idx_facts1 t
  show V c main_v29 (((cfg1.win 4).blk t).view.emb (ix2 (0 : Fin 1) q)) = V c main_v29 (ix2 (0 : Fin 1) q)
  congr 1
  funext a
  apply Fin.ext
  match a with
  | ⟨0, _⟩ => show win1_4.index t (0 : Fin 2) * 1 + 1 * 0 = 0; rw [e0]
  | ⟨1, _⟩ => show win1_4.index t (1 : Fin 2) * 256 + 1 * q.val = q.val; rw [e1]; omega

/-- What point t writes back is block t of the result array. -/
theorem flushed1_eq (c : Dev nD) (t : Fin cfg1.N) :
    (dat1 (F := Ideal) V c).flushed 5 t
      = ((cfg1.win 5).blk t).view.read (Elt Ideal) (G1 (V c main_arg0) (V c main_v24) (V c main_v27) (V c main_v28) (V c main_v29)) := by
  show (cfg1.win 5).cut (grid1.coords t) ((dat1 V c).after 5 t) = _
  rw [after1_5]
  obtain ⟨-, -, -, -, -, -, -, -, -, -, e0, e1⟩ := idx_facts1 t
  have hN : t.val < 5 := by have := t.isLt; have h5 : cfg1.N = 5 := N_1; omega
  funext y
  obtain ⟨p, q, rfl⟩ : ∃ (p : Fin 2000) (q : Fin 256), y = ix2 p q := ⟨y 0, y 1, eq_ix2 y⟩
  have hn : t.val * 2000 + p.val < 10000 := by have := p.isLt; omega
  refine (out1_5_apply _ _ _ _ _ p q).trans ?_
  simp only [fun k => iblk1_0_apply V c t p k ⟨_, hn⟩ rfl, fun k => iblk1_1_apply V c t p k ⟨_, hn⟩ rfl,
    iblk1_2_apply V c t, iblk1_3_apply V c t, iblk1_4_apply V c t]
  show _ = row1 _ _ _ _ _ ⟨((((cfg1.win 5).blk t).view.emb (ix2 p q)) 0).val, _⟩ ⟨((((cfg1.win 5).blk t).view.emb (ix2 p q)) 1).val, _⟩
  have h0 : (⟨((((cfg1.win 5).blk t).view.emb (ix2 p q)) 0).val, idx2_lt0 _⟩ : Fin 10000) = ⟨t.val * 2000 + p.val, hn⟩ := Fin.ext (by
    show win1_5.index t (0 : Fin 2) * 2000 + 1 * p.val = t.val * 2000 + p.val; rw [e0]; omega)
  have h1 : (⟨((((cfg1.win 5).blk t).view.emb (ix2 p q)) 1).val, idx2_lt1 _⟩ : Fin 256) = q := Fin.ext (by
    show win1_5.index t (1 : Fin 2) * 256 + 1 * q.val = q.val; rw [e1]; omega)
  rw [h0, h1]
  rfl

/-- An index of the array is in point t's block iff each coordinate is in the block's range on its axis. -/
theorem mem_blk1 (t : Fin cfg1.N) (i : S10000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v30).slice (win1_5.rect t)).set ↔ _
  rw [View.set_slice_whole, Rect.mem_set_unit]
  exact Iff.rfl

/-- Every row is in some point's block: row r in that of point r / 2000. -/
theorem cover1 (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  have hN : cfg1.N = 5 := N_1
  have ht : (i 0).val / 2000 < cfg1.N := by rw [hN]; omega
  obtain ⟨-, -, -, -, -, -, -, -, -, -, e0, e1⟩ := idx_facts1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 256 ≤ (i 1).val ∧ (i 1).val < win1_5.index ⟨(i 0).val / 2000, ht⟩ (1 : Fin 2) * 256 + 256
    rw [e1]; omega

/-- The output array after the region is the result array. -/
theorem final1 (c : Dev nD) :
    (dat1 (F := Ideal) V c).arrAt 5 cfg1.N = G1 (V c main_arg0) (V c main_v24) (V c main_v27) (V c main_v28) (V c main_v29) :=
  (dat1 (F := Ideal) V c).arrAt_eq_of_cover 5 (G1 (V c main_arg0) (V c main_v24) (V c main_v27) (V c main_v28) (V c main_v29))
    (fun t _ => flushed1_eq V c t) (fun i => cover1 i)

/-! ## The region's arrays at their literal types: the five inputs as the region finds them, the output as it leaves it -/

abbrev arrIn1_0 (c : Dev nD) : S10000x256.Idx → EReal := V c main_arg0
abbrev arrIn1_1 (c : Dev nD) : S10000x256.Idx → EReal := V c main_v24
abbrev arrIn1_2 (c : Dev nD) : S256x256.Idx → EReal := V c main_v27
abbrev arrIn1_3 (c : Dev nD) : S256x256.Idx → EReal := V c main_v28
abbrev arrIn1_4 (c : Dev nD) : S1x256.Idx → EReal := V c main_v29
abbrev arrOut1 (c : Dev nD) : S10000x256.Idx → EReal := (dat1 (F := Ideal) V c).arrAt 5 cfg1.N

/-- Row n, column j of the output array after the region. -/
theorem out_final (c : Dev nD) (n : Fin 10000) (j : Fin 256) :
    arrOut1 V c (ix2 n j)
      = max ((∑ k : Fin 256, arrIn1_0 V c (ix2 n k) * arrIn1_2 V c (ix2 k j))
          + (∑ k : Fin 256, arrIn1_1 V c (ix2 n k) * arrIn1_3 V c (ix2 k j))
          + arrIn1_4 V c (ix2 0 j)) 0 :=
  (congrFun (final1 V c) (ix2 n j)).trans rfl

end Cert.KernelIdeal.Hand

end
-- ==== Proof.LibRowOps.lean ====
/-
  Host row operations read at an index, over the extended reals and arbitrary sizes: a scatter-add of E scalars
  into a vector of length N, a scatter-add of E rows into an N x C table, a gather of E rows out of an N x C table,
  and a one-row dynamic slice of an N x C table. A scatter index is read signed and not clamped (an update whose
  index is outside 0..N-1 lands nowhere); a gather or slice start is read signed and clamped into 0..N-1.
-/
import Idealize.ShloMosaic.PureOps.Ideal
import Idealize.ShloMosaic.Lib.ValueIdx

noncomputable section

namespace Cert.LibRowOps

open Idealize.ShloMosaic Idealize.ShloMosaic.ValueIdx

/-- The row a clamped signed start z selects in a table of N rows. -/
def clampRow (N : Nat) (hN : 0 < N) (z : Int) : Fin N := ⟨(min (max z 0) ((N - 1 : Nat) : Int)).toNat, by omega⟩

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- An update lands at operand index i exactly when, on every operand axis, its signed start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

/-- Rank 1, one scatter axis and no window: an update lands at n exactly when its signed index is n. -/
theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

/-- E scalars added into a vector of length N at signed, unclamped indices: entry n ends at its old value plus
    the updates whose index is n. -/
theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

/-- Rank 2, one scatter axis (the rows) and one window axis (the columns): the update at row e, column f' lands
    at (n, f) exactly when f' = f and row e's signed index is n. -/
theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

/-- E rows added into an N x C table at signed, unclamped row indices. -/
theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

/-- E rows gathered out of an N x C table: row e of the result is the table's row at the clamped signed index. -/
theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

/-- A one-row dynamic slice of an N x C table whose column start is 0: the row at the clamped signed start. -/
theorem dynamicSlice_row_apply {α : Type} {N C : Nat} (hN : 0 < N) (x : (⟨2, ![N, C]⟩ : Shape).Idx → α) (start : Fin 2 → Int)
    (h0 : start 1 = 0) (h : (⟨2, ![N, C]⟩ : Shape).Slices (fun _ => 0) ⟨2, ![1, C]⟩) (f : Fin C) :
    Host.dynamicSlice (s := ⟨2, ![N, C]⟩) ⟨2, ![1, C]⟩ x start h (ix2 0 f) = x (ix2 (clampRow N hN (start 0)) f) := by
  show x _ = x _
  congr 1
  funext a
  refine Fin.ext ?_
  match a with
  | ⟨0, _⟩ =>
    show (min (max (start 0) 0) ((N - 1 : Nat) : Int)).toNat + 0 = (min (max (start 0) 0) ((N - 1 : Nat) : Int)).toNat
    rfl
  | ⟨1, _⟩ =>
    show (min (max (start 1) 0) ((C - C : Nat) : Int)).toNat + f.val = f.val
    rw [h0]; simp

end Cert.LibRowOps

end
-- ==== Proof.KIHost.lean ====
/-
  The host operations between the two kernel regions, read at an index over the extended reals.

  From the arrays the stretch finds (the six arguments and the first region's output sums) it computes: the in-degree
  of every node as a scatter-add of ones at the destination words into zeros; the divisor max(degree, 1) and its
  reciprocal 1 / max(degree, 1); the feature row the first source word selects (a negative word raised by the node
  count, the result clamped into the table); the product  row * sums * reciprocal  entry by entry; the two square
  halves of the weight matrix, each transposed; the bias as a one-row matrix. No argument array is written.
-/
import proofs.«418778_j10660108829138_1_alg».proof.Proof.Gen.KernelIdeal.Launch
import proofs.«418778_j10660108829138_1_alg».proof.Proof.Gen.KernelIdeal.Regions
import proofs.«418778_j10660108829138_1_alg».proof.Proof.Spec
import proofs.«418778_j10660108829138_1_alg».proof.Proof.LibRowOps
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## Broadcasts read at coordinates -/

section Bcast
variable {α : Type}

/-- A scalar broadcast to any shape reads the scalar everywhere. -/
theorem bc_scalar {t : Shape} (h : (⟨0, ![]⟩ : Shape).BroadcastsInDim t ![]) (v : (⟨0, ![]⟩ : Shape).Idx → α) (j : t.Idx) :
    broadcastInDim t ![] h v j = v ix0 :=
  broadcastInDim_apply _ h v j ix0 (fun a => a.elim0)

/-- A vector laid out as a column reads, at (p, 0), the vector at p. -/
theorem bc_col {n : Nat} (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt
      split <;> omega

/-- A vector laid out as a row reads, at (0, q), the vector at q. -/
theorem bc_row {m : Nat} (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt
      split <;> omega

/-- A column repeated along the rows reads, at (p, q), the column at (p, 0). -/
theorem bc_of_col {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt
      split <;> omega
    | ⟨1, _⟩ =>
      show (0 : ℕ) = if 1 = 1 then 0 else q.val
      rfl

/-- A row repeated down the columns reads, at (p, q), the row at (0, q). -/
theorem bc_of_row {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 0 q) :=
  broadcastInDim_apply _ h v _ _ fun a => by
    match a with
    | ⟨0, _⟩ =>
      show (0 : ℕ) = if 1 = 1 then 0 else p.val
      rfl
    | ⟨1, _⟩ =>
      show q.val = if m = 1 then 0 else q.val
      have := q.isLt
      split <;> omega

end Bcast

/-! ## The row the first source word selects -/

/-- The first source word as a rank-0 array: the one-element slice at 0, reshaped. -/
def firstWord (a2 : S320000.Idx → BitVec 32) : S_.Idx → BitVec 32 :=
  fun i => shapeCast S_ (extractStridedSlice S1 ![0] a2 Facts₀.slices_S320000_S1_0) Facts₀.shapeCasts_S1_S_ i

theorem firstWord_apply (a2 : S320000.Idx → BitVec 32) (j : S_.Idx) : firstWord a2 j = a2 (ix1 ⟨0, by decide⟩) := by
  unfold firstWord
  refine (shapeCast_apply _ _ j (ix1 (0 : Fin 1)) ?_).trans ?_
  · rw [Shape.rowMajor_val_one]
    have h := (S_.rowMajor j).isLt
    have h1 : S_.numel = 1 := by decide
    show (0 : ℕ) = _
    omega
  · exact extractStridedSlice_apply _ a2 _ _ (ix1 ⟨0, by decide⟩) (fun a => by match a with | ⟨0, _⟩ => rfl)

/-- The word a read at the word w takes: w raised by the node count where w, read signed, is negative. -/
theorem raised_word (w : BitVec 32) :
    Scalar.select (IntOp.cmpi .slt w 0#32) (IntOp.addi w 10000#32) w = if w.toInt < 0 then w + 10000#32 else w := by
  show (if BitVec.ofBool (w.slt 0#32) = 1 then w + 10000#32 else w) = _
  by_cases h : w.toInt < 0
  · have hs : w.slt 0#32 = true := by
      simp only [BitVec.slt, BitVec.toInt_zero, decide_eq_true_eq]
      exact h
    rw [hs, if_pos h]
    rfl
  · have hs : w.slt 0#32 = false := by
      simp only [BitVec.slt, BitVec.toInt_zero, decide_eq_false_iff_not]
      exact h
    rw [hs, if_neg h]
    rfl

/-- The raised word, read signed and clamped into the table, is the row of the word. -/
theorem clampRow_raised (w : BitVec 32) :
    Cert.LibRowOps.clampRow 10000 (by decide) (Scalar.select (IntOp.cmpi .slt w 0#32) (IntOp.addi w 10000#32) w).toInt
      = Cert.Spec.rowOf w := by
  rw [raised_word w]
  rfl

/-- A one-row slice of the feature table whose row start is the raised first source word and whose column start is 0
    is the row of the first source word. -/
theorem row_read (x0 : S10000x256.Idx → EReal) (a2 : S320000.Idx → BitVec 32) (st : Fin 2 → Int)
    (h0 : st 0 = (select (cmpi .slt (firstWord a2) (constantI S_ 32 0#32)) (addi (firstWord a2) (constantI S_ 32 10000#32))
                    (firstWord a2) (Shape.Idx.first Facts₀.h_S_)).toInt)
    (h1 : st 1 = 0) (f : Fin 256) :
    Host.dynamicSlice S1x256 x0 st Facts₀.sliceFits_S10000x256_S1x256 (ix2 0 f)
      = x0 (ix2 (Cert.Spec.rowOf (a2 (ix1 ⟨0, by decide⟩))) f) := by
  rw [Cert.LibRowOps.dynamicSlice_row_apply (by decide) x0 st h1 _ f, h0]
  show x0 (ix2 (Cert.LibRowOps.clampRow 10000 _ (Scalar.select (IntOp.cmpi .slt (firstWord a2 _) 0#32)
    (IntOp.addi (firstWord a2 _) 10000#32) (firstWord a2 _)).toInt) f) = _
  rw [firstWord_apply, clampRow_raised]

/-! ## The in-degree, the divisor and its reciprocal -/

/-- The in-degree array: ones added into zeros at the destination words. -/
def cntV (a3 : S320000.Idx → BitVec 32) : S10000.Idx → EReal :=
  Host.scatterAdd (F := Ideal) scatter_S10000_S320000x1_S320000_n_0_0_1
    (broadcastInDim S10000 ![] Facts₀.bcast_S_S10000 (constant (F := Ideal) S_ .f32 0x00000000#32))
    (broadcastInDim S320000x1 ![0] Facts₀.bcast_S320000_S320000x1_0 a3)
    (broadcastInDim S320000 ![] Facts₀.bcast_S_S320000 (constant (F := Ideal) S_ .f32 0x3F800000#32))

theorem cntV_apply (a3 : S320000.Idx → BitVec 32) (n : Fin 10000) :
    cntV a3 (ix1 n) = ∑ e : Fin 320000, (if (a3 (ix1 e)).toInt = (n.val : ℤ) then Cert.Spec.one else 0) := by
  show Ideal.hostScatterAdd scatter_S10000_S320000x1_S320000_n_0_0_1 _ _ _ (ix1 n) = _
  rw [Cert.LibRowOps.scatterAdd_vec_apply _ rfl rfl rfl rfl]
  rw [bc_scalar, constant_apply, Ideal.ofBits_zero_f32, zero_add]
  refine Finset.sum_congr rfl fun e _ => ?_
  rw [bc_col, bc_scalar, constant_apply]
  rfl

/-- A host quotient read at an index is the quotient of the entries. -/
theorem hostDivf_apply {s : Shape} {φ : FTy} (a b : FVec Ideal s φ) (i : s.Idx) :
    Host.divf (F := Ideal) a b i = Ideal.div (a i) (b i) := rfl

/-- A product of three factors whose middle factors agree. -/
theorem mul3_congr {a a' b c c' : EReal} (h1 : a = a') (h2 : c = c') : a * b * c = a' * b * c' := by rw [h1, h2]

/-- The reciprocal of the divisor: one over the larger of the in-degree and one. -/
theorem inv_apply (a3 : S320000.Idx → BitVec 32) (n : Fin 10000) :
    Host.divf (F := Ideal) (broadcastInDim S10000 ![] Facts₀.bcast_S_S10000 (constant (F := Ideal) S_ .f32 0x3F800000#32))
        (maximumf (cntV a3) (broadcastInDim S10000 ![] Facts₀.bcast_S_S10000 (constant (F := Ideal) S_ .f32 0x3F800000#32)))
        (ix1 n)
      = Ideal.div Cert.Spec.one
          (max (∑ e : Fin 320000, (if (a3 (ix1 e)).toInt = (n.val : ℤ) then Cert.Spec.one else 0)) Cert.Spec.one) := by
  rw [hostDivf_apply, maximumf_apply, cntV_apply, bc_scalar, constant_apply]
  rfl

/-! ## The stretch's results -/

/-- The six argument arrays the stretch finds, read by coordinates. -/
abbrev inputs (X : Valuation τ sig (Elt Ideal)) : Cert.Spec.Inputs :=
  Cert.Spec.ofArrays (X (Proc.devRef .tc main_arg0)) (X (Proc.devRef .tc main_arg1)) (X (Proc.devRef .tc main_arg2))
    (X (Proc.devRef .tc main_arg3)) (X (Proc.devRef .tc main_arg4)) (X (Proc.devRef .tc main_arg5))

/-- The mean's numerator scaled: the selected row times the first region's sums times the reciprocal divisor. -/
theorem host_hm (X : Valuation τ sig (Elt Ideal)) (n : Fin 10000) (f : Fin 256) :
    StableHlo.after hostOps1 X (Proc.devRef .tc main_v24) (ix2 n f)
      = Cert.Spec.feat0 (inputs X) f * (X (Proc.devRef .tc main_v0) : S10000x256.Idx → EReal) (ix2 n f)
          * Ideal.div Cert.Spec.one (Cert.Spec.den (inputs X) n) := by
  show (StableHlo.after hostOps1 X (Proc.devRef .tc main_v24) : S10000x256.Idx → EReal) (ix2 n f) = _
  after_results_simp
  show (_ * _ * _ : EReal) = _
  refine mul3_congr ?_ ?_
  · refine (bc_of_row _ _ n f).trans ?_
    refine (bc_row _ _ 0 f).trans ?_
    refine (shapeCast_1a_a_apply _ _ f).trans ?_
    refine (row_read (X (Proc.devRef .tc main_arg0)) (X (Proc.devRef .tc main_arg2)) _ ?h0 ?h1 f).trans rfl
    case h0 =>
      dsimp only [Matrix.cons_val_zero]
      erw [cast_eq]
      after_results_simp
      rfl
    case h1 =>
      dsimp only [Matrix.cons_val_one, Matrix.cons_val_zero, Matrix.head_cons]
      erw [cast_eq]
      after_results_simp
      rfl
  · refine (bc_of_col _ _ n f).trans ?_
    refine (bc_col _ _ n 0).trans ?_
    exact inv_apply (X (Proc.devRef .tc main_arg3)) n

/-- The first half of the weight matrix, transposed. -/
theorem host_wt1 (X : Valuation τ sig (Elt Ideal)) (k j : Fin 256) :
    StableHlo.after hostOps1 X (Proc.devRef .tc main_v27) (ix2 k j)
      = (X (Proc.devRef .tc main_arg4) : S256x512.Idx → EReal) (ix2 j ⟨k.val, by omega⟩) := by
  show (StableHlo.after hostOps1 X (Proc.devRef .tc main_v27) : S256x256.Idx → EReal) (ix2 k j) = _
  after_results_simp
  refine (transpose_ix2_apply _ _ k j).trans ?_
  exact slice2_axis1_apply 0 _ _ j k ⟨k.val, by omega⟩ (Nat.zero_add _).symm

/-- The second half of the weight matrix, transposed. -/
theorem host_wt2 (X : Valuation τ sig (Elt Ideal)) (k j : Fin 256) :
    StableHlo.after hostOps1 X (Proc.devRef .tc main_v28) (ix2 k j)
      = (X (Proc.devRef .tc main_arg4) : S256x512.Idx → EReal) (ix2 j ⟨256 + k.val, by omega⟩) := by
  show (StableHlo.after hostOps1 X (Proc.devRef .tc main_v28) : S256x256.Idx → EReal) (ix2 k j) = _
  after_results_simp
  refine (transpose_ix2_apply _ _ k j).trans ?_
  exact slice2_axis1_apply 256 _ _ j k ⟨256 + k.val, by omega⟩ rfl

/-- The bias as a one-row matrix. -/
theorem host_b (X : Valuation τ sig (Elt Ideal)) (j : Fin 256) :
    StableHlo.after hostOps1 X (Proc.devRef .tc main_v29) (ix2 0 j)
      = (X (Proc.devRef .tc main_arg5) : S256.Idx → EReal) (ix1 j) := by
  show (StableHlo.after hostOps1 X (Proc.devRef .tc main_v29) : S1x256.Idx → EReal) (ix2 0 j) = _
  after_results_simp
  exact bc_row _ _ 0 j

/-- The stretch writes no argument array: the feature table is as it was. -/
theorem host_arg0 (X : Valuation τ sig (Elt Ideal)) :
    StableHlo.after hostOps1 X (Proc.devRef .tc main_arg0) = X (Proc.devRef .tc main_arg0) :=
  StableHlo.after_of_writes_sub hostOps1 X hostOps1_writes (by decide)

end Cert.KernelIdeal.Hand

end
-- ==== Proof.KIBridge.lean ====
/- The kernel side of the comparison over the extended reals: the array @main returns in main_v30, read entry by entry,
   is the blocked one-hot form of the layer over the argument arrays as launched. Region 1's value is a formula over
   five of the buffers it is entered with; the host stretch's results say what four of those hold over region 0's exit
   contents; region 0's value is the chunk-by-chunk sum; and every argument array reaches each reader as launched. -/
import proofs.«418778_j10660108829138_1_alg».proof.Proof.KIRun
import proofs.«418778_j10660108829138_1_alg».proof.Proof.KIValue0
import proofs.«418778_j10660108829138_1_alg».proof.Proof.KIValue1
import proofs.«418778_j10660108829138_1_alg».proof.Proof.KIHost
import proofs.«418778_j10660108829138_1_alg».proof.Proof.Spec

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The argument arrays as launched on core c, read by coordinates. -/
abbrev inputsK (c : Dev nD) : Cert.Spec.Inputs :=
  Cert.Spec.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The host stretch finds the argument arrays as launched: region 0 reads four of them through its input windows
    and does not touch the other two. -/
theorem inputs_W1 (c : Dev nD) : inputs (W1 m ρ c) = inputsK m c := by
  show Cert.Spec.ofArrays (W1 m ρ c (Proc.devRef .tc main_arg0)) (W1 m ρ c (Proc.devRef .tc main_arg1)) (W1 m ρ c (Proc.devRef .tc main_arg2))
      (W1 m ρ c (Proc.devRef .tc main_arg3)) (W1 m ρ c (Proc.devRef .tc main_arg4)) (W1 m ρ c (Proc.devRef .tc main_arg5)) = _
  rw [W1_main_arg0, W1_main_arg1, W1_main_arg2, W1_main_arg3, W1_main_arg4, W1_main_arg5]

/-- Region 1 reads the feature table as launched: the host stretch does not write it and region 0 reads it only. -/
theorem V2_feat (c : Dev nD) (n : Fin 10000) (k : Fin 256) :
    V2 m ρ c main_arg0 (ix2 n k) = (inputsK m c).feat n k := by
  rw [V2_eq, host_arg0, W1_main_arg0]; rfl

/-- The first weight operand of region 1 is the first half of the weight matrix, transposed. -/
theorem V2_wt1 (c : Dev nD) (k j : Fin 256) :
    V2 m ρ c main_v27 (ix2 k j) = (inputsK m c).W j ⟨k.val, by omega⟩ := by
  rw [V2_eq, host_wt1, W1_main_arg4]; rfl

/-- The second weight operand of region 1 is the second half of the weight matrix, transposed. -/
theorem V2_wt2 (c : Dev nD) (k j : Fin 256) :
    V2 m ρ c main_v28 (ix2 k j) = (inputsK m c).W j ⟨256 + k.val, by omega⟩ := by
  rw [V2_eq, host_wt2, W1_main_arg4]; rfl

/-- The bias row of region 1 is the bias as launched. -/
theorem V2_b (c : Dev nD) (j : Fin 256) :
    V2 m ρ c main_v29 (ix2 0 j) = (inputsK m c).b j := by
  rw [V2_eq, host_b, W1_main_arg5]; rfl

/-- The mean-message operand of region 1 is the blocked form's mean message: the host stretch scales what region 0
    summed, chunk by chunk, by the common factor and the reciprocal of the degree. -/
theorem V2_hm (c : Dev nD) (n : Fin 10000) (k : Fin 256) :
    V2 m ρ c main_v24 (ix2 n k) = Cert.Spec.hmK (inputsK m c) n k := by
  refine (host_hm (W1 m ρ c) n k).trans ?_
  rw [inputs_W1 m ρ c, W1_main_v0 m ρ c]
  refine (congrArg (fun s : EReal => Cert.Spec.feat0 (inputsK m c) k * s * Ideal.div Cert.Spec.one (Cert.Spec.den (inputsK m c) n))
    (sums_final (V0 m ρ) c n k)).trans ?_
  rfl

/-- THE KERNEL SIDE: the result array, entry by entry, is the blocked one-hot form of the layer over the launched
    arguments. -/
theorem resArr_eq_outK (m : (ℓ : Loc nD τ sig) → Buf (Elt Ideal) ℓ) (ρ : Dev nD → PrngReg) (c : Dev nD) (n : Fin 10000) (j : Fin 256) :
    resArr (F := Ideal) m ρ c (ix2 n j) = Cert.Spec.outK (Cert.Spec.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) n j := by
  unfold resArr
  refine (out_final (V2 m ρ) c n j).trans ?_
  unfold Cert.Spec.outK
  refine congrArg (fun x : EReal => max x 0) ?_
  refine congrArg₂ (· + ·) (congrArg₂ (· + ·) ?_ ?_) (V2_b m ρ c j)
  · exact Finset.sum_congr rfl fun k _ => congrArg₂ (· * ·) (V2_feat m ρ c n k) (V2_wt1 m ρ c k j)
  · exact Finset.sum_congr rfl fun k _ => congrArg₂ (· * ·) (V2_hm m ρ c n k) (V2_wt2 m ρ c k j)

end Cert.KernelIdeal.Hand

end
-- ==== Proof.KR0Runs.lean ====
/- Region 0 (the edge gather and scatter kernel): the body's branch condition over the grid, the staging memrefs
   the pipeline passes at a point, and the body's run in each of its two control cases — the first point, where the
   output block is zeroed before it is accumulated into, and every later point, where it is accumulated into as the
   point before left it. Each run is found as a subtype: the pieces the output's staging buffer ends with are its
   witness. At any float instance. -/
import proofs.«418778_j10660108829138_1_alg».proof.Proof.Gen.Kernel.Launch
import proofs.«418778_j10660108829138_1_alg».proof.Proof.Gen.Kernel.Skeleton
import proofs.«418778_j10660108829138_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch condition -/

/-- The condition of the body's one conditional, from the grid coordinates (the scalar chain substituted). -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 1250 = 0 :=
  (by decide +kernel : ∀ t : Fin grid0.N, cond0_0 (grid0.coords t) ↔ t.val % 1250 = 0)

/-! ## The staging memrefs at a point -/

/-- The one staging buffer of the output window, through which its contents are stated. -/
abbrev VO0_4 : View sig .tc .vmem S10000x256 .f32 := (Memref.whole cc0_stg4_0 : Memref sig .tc .vmem S10000x256 .f32).view
/-- Each window's current staging memref at point t, spelled as the pipeline passes it, and its wholeness. -/
abbrev ms0_0 (t : Fin cfg0.N) : Memref sig .tc .vmem S10000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x256 .f32 := win0_4.stage (cfg0.slots t 4)
abbrev hs0_4 (t : Fin cfg0.N) : (ms0_4 t).IsWhole := hstage0_4 ((cfg0.slots t 4).cast nbuf0_4)

/-! ## The body's run, case by case -/

set_option maxHeartbeats 1000000 in
/-- CASE A (the conditional taken: the first point). On whole staging memrefs, the four inputs' at their contents and
    the output's at anything, the body runs to the continuation holding the inputs' as they were and the output's
    buffer with the pieces its two stores wrote, last first. -/
noncomputable def kernelRun0_A (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : cond0_0 i)
    (x0 : Vec F S10000x256 .f32) (x1 : Vec F S256 .i32) (x2 : Vec F S256 .i32) (x3 : Vec F S256 .f32) :
    { L4 : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__edge_gather_scatter_kernel i arg1 harg1 arg2 harg2 arg3 harg3 arg4 harg4 arg5 harg5) K } := by
  refine ⟨?_, fun E K => ?run⟩
  case run =>
    simp only [cc0__edge_gather_scatter_kernel_eq_skeleton]; unfold cc0__edge_gather_scatter_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

set_option maxHeartbeats 1000000 in
/-- CASE B (the conditional not taken: every later point). On whole staging memrefs, the four inputs' at their
    contents and the output's at its running contents xo4, the body runs to the continuation holding the inputs' as
    they were and the output's buffer with the piece its one store wrote. -/
noncomputable def kernelRun0_B (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : ¬cond0_0 i)
    (x0 : Vec F S10000x256 .f32) (x1 : Vec F S256 .i32) (x2 : Vec F S256 .i32) (x3 : Vec F S256 .f32) (xo4 : Vec F S10000x256 .f32) :
    { L4 : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__edge_gather_scatter_kernel i arg1 harg1 arg2 harg2 arg3 harg3 arg4 harg4 arg5 harg5) K } := by
  refine ⟨?_, fun E K => ?run⟩
  case run =>
    simp only [cc0__edge_gather_scatter_kernel_eq_skeleton]; unfold cc0__edge_gather_scatter_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KR0.lean ====
/- Region 0 (the edge gather and scatter kernel, 1250 grid points, its output block carried from point to point):
   what the output holds after each point, the pipeline's proof data and the body obligation, at any float instance,
   stated at the buffer contents V the region is entered with. -/
import proofs.«418778_j10660108829138_1_alg».proof.Proof.KR0Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is the entry contents and whose body
    leaves the block in place. Window 0 is fetched at the first point only, windows 1, 2, 3 at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block -/

/-- Case A's pieces for the output cover its block: two stores of the whole block. -/
theorem cover0_A_4 (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : cond0_0 i)
    (x0 : Vec F S10000x256 .f32) (x1 : Vec F S256 .i32) (x2 : Vec F S256 .i32) (x3 : Vec F S256 .f32) (y : S10000x256.Idx) :
    ∃ pc ∈ (kernelRun0_A c i arg1 harg1 arg2 harg2 arg3 harg3 arg4 harg4 arg5 harg5 hc0 x0 x1 x2 x3).1, y ∈ pc.1.set :=
  View.cover_of_tiledL (kernelRun0_A c i arg1 harg1 arg2 harg2 arg3 harg3 arg4 harg4 arg5 harg5 hc0 x0 x1 x2 x3).1 S10000x256.size (by sl_kernel_rfl) y

/-- What case A leaves in the output's staging buffer: its pieces read back over junk. -/
def out0_A_4 (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : cond0_0 i)
    (x0 : Vec F S10000x256 .f32) (x1 : Vec F S256 .i32) (x2 : Vec F S256 .i32) (x3 : Vec F S256 .f32) : Vec F S10000x256 .f32 :=
  VO0_4.read (Elt F) (VO0_4.writes (Elt F) VO0_4.junk (kernelRun0_A c i arg1 harg1 arg2 harg2 arg3 harg3 arg4 harg4 arg5 harg5 hc0 x0 x1 x2 x3).1)

/-- Case B's piece for the output covers its block: one store of the whole block. -/
theorem cover0_B_4 (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : ¬cond0_0 i)
    (x0 : Vec F S10000x256 .f32) (x1 : Vec F S256 .i32) (x2 : Vec F S256 .i32) (x3 : Vec F S256 .f32) (xo4 : Vec F S10000x256 .f32) (y : S10000x256.Idx) :
    ∃ pc ∈ (kernelRun0_B c i arg1 harg1 arg2 harg2 arg3 harg3 arg4 harg4 arg5 harg5 hc0 x0 x1 x2 x3 xo4).1, y ∈ pc.1.set :=
  View.cover_of_tiledL (kernelRun0_B c i arg1 harg1 arg2 harg2 arg3 harg3 arg4 harg4 arg5 harg5 hc0 x0 x1 x2 x3 xo4).1 S10000x256.size (by sl_kernel_rfl) y

/-- What case B leaves in the output's staging buffer: its piece read back over junk. -/
def out0_B_4 (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : ¬cond0_0 i)
    (x0 : Vec F S10000x256 .f32) (x1 : Vec F S256 .i32) (x2 : Vec F S256 .i32) (x3 : Vec F S256 .f32) (xo4 : Vec F S10000x256 .f32) : Vec F S10000x256 .f32 :=
  VO0_4.read (Elt F) (VO0_4.writes (Elt F) VO0_4.junk (kernelRun0_B c i arg1 harg1 arg2 harg2 arg3 harg3 arg4 harg4 arg5 harg5 hc0 x0 x1 x2 x3 xo4).1)

/-- The whole-block rectangle's offsets are zero. -/
theorem hz2 : (![0, 0] : Fin S10000x256.rank → ℕ) = fun _ => 0 := by funext a; fin_cases a <;> rfl
theorem hz1 : (![0] : Fin S256.rank → ℕ) = fun _ => 0 := by funext a; fin_cases a <;> rfl

/-- Case A leaves the point's contribution added to the zero block: the block is zeroed, read back, and the sum
    stored over it. -/
theorem out0_A_4_eq (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : cond0_0 i)
    (x0 : Vec F S10000x256 .f32) (x1 : Vec F S256 .i32) (x2 : Vec F S256 .i32) (x3 : Vec F S256 .f32) :
    out0_A_4 c i arg1 harg1 arg2 harg2 arg3 harg3 arg4 harg4 arg5 harg5 hc0 x0 x1 x2 x3 = k0_pay2 x1 x2 x3 x0 (k0_pay1 (F := F)) := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  rw [View.canon_cons_unit_zero (S := S10000x256) hz2]
  rw [View.readCov_unit_zero (S := S10000x256) _ hz2]
  simp only [View.readAt_eq_ld, harg1.read_unread, harg2.read_unread, harg3.read_unread, harg4.read_unread,
    View.ld_unit_zero (S := S10000x256) hz2, View.ld_unit_zero (S := S256) hz1]

/-- Case B leaves the point's contribution added to what the block held. -/
theorem out0_B_4_eq (c : Dev nD) (i : grid0.Coords) (arg1 : Memref sig .tc .vmem S10000x256 .f32) (harg1 : arg1.IsWhole) (arg2 : Memref sig .tc .vmem S256 .i32) (harg2 : arg2.IsWhole) (arg3 : Memref sig .tc .vmem S256 .i32) (harg3 : arg3.IsWhole) (arg4 : Memref sig .tc .vmem S256 .f32) (harg4 : arg4.IsWhole) (arg5 : Memref sig .tc .vmem S10000x256 .f32) (harg5 : arg5.IsWhole) (hc0 : ¬cond0_0 i)
    (x0 : Vec F S10000x256 .f32) (x1 : Vec F S256 .i32) (x2 : Vec F S256 .i32) (x3 : Vec F S256 .f32) (xo4 : Vec F S10000x256 .f32) :
    out0_B_4 c i arg1 harg1 arg2 harg2 arg3 harg3 arg4 harg4 arg5 harg5 hc0 x0 x1 x2 x3 xo4 = k0_pay2 x1 x2 x3 x0 xo4 := by
  unfold out0_B_4
  rw [View.read_writes_eq_canon _ _ _ (cover0_B_4 c i arg1 harg1 arg2 harg2 arg3 harg3 arg4 harg4 arg5 harg5 hc0 x0 x1 x2 x3 xo4)]
  unfold kernelRun0_B
  dsimp only
  sl_unfold_words
  rw [View.canon_unit_zero (S := S10000x256) hz2]
  simp only [View.readAt_eq_ld, harg1.read_unread, harg2.read_unread, harg3.read_unread, harg4.read_unread, harg5.read_unread,
    View.ld_unit_zero (S := S10000x256) hz2, View.ld_unit_zero (S := S256) hz1]

/-! ## What the output holds after each point -/

/-- What the output window's staging buffer holds after the body at position n. -/
def outsAt0 (V : (c : Dev nD) → (b : Ref sig .tc) → Buf (Elt F) ((c : Thread nD τ).loc b)) (c : Dev nD) : (n : ℕ) → n < cfg0.N → Vec F S10000x256 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 1250 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn))

/-- At a point of case A: that case's contents. -/
theorem outsAt0_A (c : Dev nD) (t : Fin cfg0.N) (h0 : t.val % 1250 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) (iblk0 V c 3 t) := by
  obtain ⟨n, hn⟩ := t
  cases n with
  | zero => exact rfl
  | succ n => exact (dif_pos h0).trans rfl

/-- At a point of case B: that case's contents, over what the point before left. -/
theorem outsAt0_B (c : Dev nD) (t : Fin cfg0.N) (h0 : ¬t.val % 1250 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- At the first point the body zeroes the block and then adds the chunk's contribution to it. -/
theorem outsAt0_zero (c : Dev nD) (h : 0 < cfg0.N) :
    outsAt0 V c 0 h = k0_pay2 (iblk0 V c 1 ⟨0, h⟩) (iblk0 V c 2 ⟨0, h⟩) (iblk0 V c 3 ⟨0, h⟩) (iblk0 V c 0 ⟨0, h⟩) (k0_pay1 (F := F)) :=
  (outsAt0_A V c ⟨0, h⟩ (Nat.zero_mod _)).trans
    (out0_A_4_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr (Nat.zero_mod _)) (iblk0 V c 0 ⟨0, h⟩) (iblk0 V c 1 ⟨0, h⟩) (iblk0 V c 2 ⟨0, h⟩) (iblk0 V c 3 ⟨0, h⟩))

/-- At a later point the body adds the chunk's contribution to what the point before left. -/
theorem outsAt0_succ (c : Dev nD) (n : ℕ) (h : n + 1 < cfg0.N) :
    outsAt0 V c (n + 1) h = k0_pay2 (iblk0 V c 1 ⟨n + 1, h⟩) (iblk0 V c 2 ⟨n + 1, h⟩) (iblk0 V c 3 ⟨n + 1, h⟩) (iblk0 V c 0 ⟨n + 1, h⟩)
      (outsAt0 V c n (Nat.lt_of_succ_lt h)) := by
  have hN : n + 1 < 1250 := lt_of_lt_of_eq h (show cfg0.N = 1250 from N_0)
  have h0 : ¬(n + 1) % 1250 = 0 := by omega
  exact (outsAt0_B V c ⟨n + 1, h⟩ h0).trans
    (out0_B_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => h0 ((hcond0_0 ⟨n + 1, h⟩).mp hc)) (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)))

/-! ## The pipeline's proof data -/

/-- The proof data of pipeline 0 on core c: the arrays as the region finds them; after the body at point t each
    input's buffer at its block and the output's at what the points so far accumulated; the invariant the scoped
    rest and the generator register, untouched; nothing owed; full shares. -/
def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem share0 (c : Dev nD) (w : Fin cfg0.W) : (dat0 V c).q w = fullShare := by dsimp only [dat0]
theorem owed0 (c : Dev nD) (t) : (dat0 V c).owed t = 0 := by dsimp only [dat0]
theorem Φ0 (c : Dev nD) (t) : (dat0 V c).Φ t = Pipeline.ΦA spec0 c := by dsimp only [dat0]
theorem recorded0 (c : Dev nD) (t) : (dat0 V c).recorded t = Set.univ := rfl

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a point of case B the output's staging buffer holds what the body left at the point before: the point is not
    the first, the buffer was not written back between (it is written back at the last point only), the window is
    live and uncut. -/
theorem before0_4_B (c : Dev nD) (t : Fin cfg0.N) (h0 : ¬t.val % 1250 = 0) (d) :
    (dat0 V c).before 4 t d = (outsAt0 V c (t.val - 1) (Nat.lt_of_le_of_lt (Nat.sub_le _ _) t.isLt)) := by
  have hN : t.val < 1250 := lt_of_lt_of_eq t.isLt (show cfg0.N = 1250 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form says which case the point is in; in
    case B the output's buffer holds what the point before left; so the case's run applies; the invariant passes
    through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 1250 := lt_of_lt_of_eq t.isLt (show cfg0.N = 1250 from N_0)
  by_cases h0 : t.val % 1250 = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
/- Region 1 (the apply kernel, 5 row tiles of 2000): what its output block holds after the body, the pipeline's
   proof data and the body obligation, at any float instance, stated at the buffer contents V the region is entered
   with. -/
import proofs.«418778_j10660108829138_1_alg».proof.Proof.Gen.Kernel.Launch
import proofs.«418778_j10660108829138_1_alg».proof.Proof.Gen.Kernel.Skeleton
import proofs.«418778_j10660108829138_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: unfetched, the block index has not moved
    (windows 2, 3 and 4 are fetched at the first point only, and their index is constant). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x256 := Rect.unit (s := S2000x256) ![0, 0] S2000x256.size inb_S2000x256_S2000x256_0_0

/-- The output window's staging buffer after the body, from the input windows' blocks. -/
def out1_5 (x0 : Vec F S2000x256 .f32) (x1 : Vec F S2000x256 .f32) (x2 : Vec F S256x256 .f32) (x3 : Vec F S256x256 .f32)
    (x4 : Vec F S1x256 .f32) : Vec F S2000x256 .f32 :=
  View.canon [⟨r1_0, k1_pay1 x0 x1 x2 x3 x4⟩]

/-- The one store is over the whole block, so it covers it. -/
theorem cover1_5 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

set_option maxHeartbeats 1000000 in
/-- The kernel body on whole staging memrefs, the inputs' at read contents x0..x4 and the output's at anything, runs
    to the continuation holding the inputs' as they were and the output's at out1_5 of the inputs'. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 : Vec F S2000x256 .f32) (x2 : Vec F S256x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__apply_kernel i arg1 harg1 arg2 harg2 arg3 harg3 arg4 harg4 arg5 harg5 arg6 harg6) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := funext fun a => by fin_cases a <;> rfl
  have e0 : View.readAt (Elt F) arg1.view (Rect.unit (s := S2000x256) ![0, 0] S2000x256.size inb_S2000x256_S2000x256_0_0).toLoadRect f0
      = View.read (Elt F) arg1.view f0 := View.ld_unit_zero (S := S2000x256) hz _ _
  have e1 : View.readAt (Elt F) arg2.view (Rect.unit (s := S2000x256) ![0, 0] S2000x256.size inb_S2000x256_S2000x256_0_0).toLoadRect f1
      = View.read (Elt F) arg2.view f1 := View.ld_unit_zero (S := S2000x256) hz _ _
  have e2 : View.readAt (Elt F) arg3.view (Rect.unit (s := S256x256) ![0, 0] S256x256.size inb_S256x256_S256x256_0_0).toLoadRect f2
      = View.read (Elt F) arg3.view f2 := View.ld_unit_zero (S := S256x256) hz _ _
  have e3 : View.readAt (Elt F) arg4.view (Rect.unit (s := S256x256) ![0, 0] S256x256.size inb_S256x256_S256x256_0_0).toLoadRect f3
      = View.read (Elt F) arg4.view f3 := View.ld_unit_zero (S := S256x256) hz _ _
  have e4 : View.readAt (Elt F) arg5.view (Rect.unit (s := S1x256) ![0, 0] S1x256.size inb_S1x256_S1x256_0_0).toLoadRect f4
      = View.read (Elt F) arg5.view f4 := View.ld_unit_zero (S := S1x256) hz _ _
  rw [e0, e1, e2, e3, e4]
  exact View.read_writes_eq_canon _ _ _ (cover1_5 _)

/-- The proof data of pipeline 1 on core c: the arrays as the region finds them; after the body at point t each
    input's buffer at its block and the output's at out1_5 of the input blocks; the invariant the scoped rest and the
    generator register, untouched; nothing owed; full shares. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem share1 (c : Dev nD) (w : Fin cfg1.W) : (dat1 V c).q w = fullShare := by dsimp only [dat1]
theorem owed1 (c : Dev nD) (t) : (dat1 V c).owed t = 0 := by dsimp only [dat1]
theorem Φ1 (c : Dev nD) (t) : (dat1 V c).Φ t = Pipeline.ΦA spec1 c := by dsimp only [dat1]
theorem recorded1 (c : Dev nD) (t) : (dat1 V c).recorded t = Set.univ := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/- The run of @main from the launch to the return, at any float instance. @main is three items: region 0 (the edge
   gather and scatter kernel, result main_v0), one stretch of forty host operations, region 1 (the apply kernel,
   result main_v30). This module names the buffers' contents at each boundary between the items, shows that every
   argument array is carried unchanged through all three, presents the two regions as segments of the run over their
   modules' proof data, and concludes the frame claim and the run with the result array named. -/
import proofs.«418778_j10660108829138_1_alg».proof.Proof.KR0
import proofs.«418778_j10660108829138_1_alg».proof.Proof.KR1
import proofs.«418778_j10660108829138_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between the items: a fold through @main -/

/-- Core c's buffers at launch (region 0's entry: no host operation comes before it). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, the output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves and every other buffer what it held at
    entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer no host operation writes is carried through the host stretch. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-! ### What the value side reads off the fold -/

/-- Region 1 is entered from the host stretch run on region 0's exit contents. -/
theorem V2_eq (c : Dev nD) (b : Ref sig .tc) : V2 m ρ c b = StableHlo.after hostOps1 (W1 m ρ c) (Proc.devRef .tc b) := rfl
/-- Region 0 is entered from the launch memory. -/
theorem V0_eq (c : Dev nD) (b : Ref sig .tc) : V0 m ρ c b = m ((c : Thread nD τ).loc b) := rfl
/-- Region 0 leaves in main_v0 its output window's array with every write-back folded. -/
theorem W1_main_v0 (c : Dev nD) : W1 m ρ c (Proc.devRef .tc main_v0) = (dat0 (V0 m ρ) c).arrAt 4 cfg0.N := W1_arr m ρ c 4

/-! ### The arguments end as launched: no host operation writes one, and a region reads it through an input window
    or does not touch it, so the fold at an argument's buffer walks back to the launch memory -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of m ρ c main_arg0 (by decide)
    _ = m ((c : Thread nD τ).loc main_arg0) := W1_main_arg0 m ρ c
theorem V0_main_arg0 (c : Dev nD) : V0 m ρ c main_arg0 = m ((c : Thread nD τ).loc main_arg0) := rfl

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := (W1_arr m ρ c 3).trans (((dat0 (V0 m ρ) c).arrAt_in 3 rfl _).trans (A_eq0 (V0 m ρ) c 3))
    _ = m ((c : Thread nD τ).loc main_arg1) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = m ((c : Thread nD τ).loc main_arg1) := W1_main_arg1 m ρ c
theorem V0_main_arg1 (c : Dev nD) : V0 m ρ c main_arg1 = m ((c : Thread nD τ).loc main_arg1) := rfl

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = m ((c : Thread nD τ).loc main_arg2) := W1_main_arg2 m ρ c
theorem V0_main_arg2 (c : Dev nD) : V0 m ρ c main_arg2 = m ((c : Thread nD τ).loc main_arg2) := rfl

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = m ((c : Thread nD τ).loc main_arg3) := W1_main_arg3 m ρ c
theorem V0_main_arg3 (c : Dev nD) : V0 m ρ c main_arg3 = m ((c : Thread nD τ).loc main_arg3) := rfl

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := W1_of_ne m ρ c main_arg4 (by decide)
    _ = m ((c : Thread nD τ).loc main_arg4) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of m ρ c main_arg4 (by decide)
    _ = m ((c : Thread nD τ).loc main_arg4) := W1_main_arg4 m ρ c
theorem V0_main_arg4 (c : Dev nD) : V0 m ρ c main_arg4 = m ((c : Thread nD τ).loc main_arg4) := rfl

theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := W1_of_ne m ρ c main_arg5 (by decide)
    _ = m ((c : Thread nD τ).loc main_arg5) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of m ρ c main_arg5 (by decide)
    _ = m ((c : Thread nD τ).loc main_arg5) := W1_main_arg5 m ρ c
theorem V0_main_arg5 (c : Dev nD) : V0 m ρ c main_arg5 = m ((c : Thread nD τ).loc main_arg5) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies, at nothing owed. -/
abbrev R (c : Dev nD) : sProp 𝕄 := iprop((∃ r, prngReg c r) ∗ ∃ W, owes (c : Thread nD τ) (0 : CellTallies nD τ sig Unit) W)
/-- A host stretch as a segment over the unscoped references from the contents W, R riding along: it ends with
    those references at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the launch contents, left at W1. Its
    arrays are split out of the unscoped buffers and put back at the exit contents; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => owed0 (V0 m ρ) c t
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => share0 (V0 m ρ) c w) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hrec : (pdats m ρ 0 c).recorded 0 = Set.univ := recorded0 (V0 m ρ) c _
      unfold Pipeline.Dat.owesAt Pipeline.owesWithin Pipeline.Dat.bound
      rw [show (pdats m ρ 0 c).owed 0 = 0 from owed0 (V0 m ρ) c _, hrec]
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Φ0 (V0 m ρ) c _]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from Φ0 (V0 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => share0 (V0 m ρ) c w)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed0 (V0 m ρ) c _]
    icases HO with ⟨%W, -, HO⟩; iexists W; iexact HO

set_option backward.isDefEq.respectTransparency.types false in
/-- Region 1 over the thread state: entered from every unscoped buffer at W2, left at W3 (what the launch reads at
    the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => share1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hrec : (pdats m ρ 1 c).recorded 0 = Set.univ := recorded1 (V2 m ρ) c _
      unfold Pipeline.Dat.owesAt Pipeline.owesWithin Pipeline.Dat.bound
      rw [show (pdats m ρ 1 c).owed 0 = 0 from owed1 (V2 m ρ) c _, hrec]
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Φ1 (V2 m ρ) c _]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Φ1 (V2 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => share1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ 1 c).owed (Fin.last _) = 0 from owed1 (V2 m ρ) c _]
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and every final memory holds, at each unscoped buffer of each core, the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final memory has each
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩) (run_all m ρ)

/-- The result array on core c: window 5 of region 1 is main_v30, and the region leaves in it that window's array
    with every write-back folded. -/
def resArr (c : Dev nD) : Buf (Elt F) ((c.tc : Thread nD τ).loc main_v30) := (dat1 (V2 m ρ) c).arrAt 5 cfg1.N

/-- The last boundary's contents at main_v30 are the result array. -/
theorem W3_main_v30 (c : Dev nD) : W3 m ρ c (Proc.devRef .tc main_v30) = resArr m ρ c := W3_arr m ρ c 5

/-- THE RUN, the result named: every weakly fair execution of @main terminates, nothing faulting, and every final
    memory holds the result array in main_v30 and each argument array as launched. -/
theorem run_result : θ_run defs (onTc (τ := τ) (main (F := F))) ⟨m, fun _ => 0, ρ⟩ (fun r => ∀ c : Dev nD,
      r.2.mem ((c.tc : Thread nD τ).loc main_v30) = resArr m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c =>
    ⟨(h c _ (mem_uc main_v30 (by decide))).trans (W3_main_v30 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩) (run_all m ρ)

end Cert.Kernel.Hand

end
-- ==== Proof.RefValue.lean ====
/-
  The reference's result at an index, over the extended reals: one GCN layer with mean aggregation, read stage by stage.

  The first edge's source word, raised by the node count when negative and clamped into the table, selects the row r0;
  every edge's source word, raised and clamped alike, selects its gathered row; the message of edge e at feature f is
  r0 f * feat (row of src e) f * ew e; the scatter of the messages at node n is the sum of the messages of the edges
  whose destination word, read signed, is n, and the scatter of ones is the in-degree; the mean divides by the
  in-degree, at least one; the contraction runs over the 512 columns of the features joined with the means against
  the transposed weights; the bias is added and the result cut at zero. Each stage below is stated at explicit
  coordinates and lands on the plain formula's name for it; the last is the plain formula itself.
-/
import proofs.«418778_j10660108829138_1_alg».proof.Proof.RefRead
import proofs.«418778_j10660108829138_1_alg».proof.Proof.Spec
import proofs.«418778_j10660108829138_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo

section RunTerm
variable {F : FTy → Type} [FloatOps F]

/-- The term the run of the reference states for its result buffer is the last stage. -/
theorem run_eq (x0 : (⟨S10000x256, .f32⟩ : BufTy).Contents (Elt F)) (x1 : (⟨S320000, .f32⟩ : BufTy).Contents (Elt F)) (x2 x3 : (⟨S320000, .i32⟩ : BufTy).Contents (Elt F)) (x4 : (⟨S256x512, .f32⟩ : BufTy).Contents (Elt F)) (x5 : (⟨S256, .f32⟩ : BufTy).Contents (Elt F)) :
    maximumf (addf (Host.dotGeneral dot_S10000x512_S512x256_S10000x256_1_0_0_1_n_n none (concatenate S10000x512 1 [⟨S10000x256, (x0)⟩, ⟨S10000x256, (Host.divf (Host.scatterAdd scatter_S10000x256_S320000x1_S320000x256_1_0_0_1 (broadcastInDim S10000x256 ![] bcast_S_S10000x256 (constant S_ .f32 0x00000000#32)) (broadcastInDim S320000x1 ![0] bcast_S320000_S320000x1_0 (x3)) (mulf (mulf (broadcastInDim S320000x256 ![0, 1] bcast_S1x256_S320000x256_0_1 (broadcastInDim S1x256 ![1] bcast_S256_S1x256_1 (shapeCast _ (Host.dynamicSlice S1x256 (x0) (fun k => (((![select (cmpi .slt (shapeCast _ (extractStridedSlice S1 ![0] (x2) slices_S320000_S1_0) shapeCasts_S1_S_) (constantI S_ 32 0#32)) (addi (shapeCast _ (extractStridedSlice S1 ![0] (x2) slices_S320000_S1_0) shapeCasts_S1_S_) (constantI S_ 32 10000#32)) (shapeCast _ (extractStridedSlice S1 ![0] (x2) slices_S320000_S1_0) shapeCasts_S1_S_), select (cmpi .slt (constantI S_ 32 0#32) (constantI S_ 32 0#32)) (addi (constantI S_ 32 0#32) (constantI S_ 32 256#32)) (constantI S_ 32 0#32)] : Fin 2 → (⟨S_, .i32⟩ : BufTy).Contents (Elt F))) k (Shape.Idx.first h_S_)).toInt) sliceFits_S10000x256_S1x256) shapeCasts_S1x256_S256))) (Host.gather gather_S10000x256_S320000x1_S320000x256_1_0_n_n_0_1_1256 (x0) (broadcastInDim S320000x1 ![0] bcast_S320000_S320000x1_0 (select (cmpi .slt (x2) (broadcastInDim S320000 ![] bcast_S_S320000 (constantI S_ 32 0#32))) (addi (x2) (broadcastInDim S320000 ![] bcast_S_S320000 (constantI S_ 32 10000#32))) (x2))))) (broadcastInDim S320000x256 ![0, 1] bcast_S320000x1_S320000x256_0_1 (broadcastInDim S320000x1 ![0] bcast_S320000_S320000x1_0 (x1))))) (broadcastInDim S10000x256 ![0, 1] bcast_S10000x1_S10000x256_0_1 (broadcastInDim S10000x1 ![0] bcast_S10000_S10000x1_0 (maximumf (Host.scatterAdd scatter_S10000_S320000x1_S320000_n_0_0_1 (broadcastInDim S10000 ![] bcast_S_S10000 (constant S_ .f32 0x00000000#32)) (broadcastInDim S320000x1 ![0] bcast_S320000_S320000x1_0 (x3)) (broadcastInDim S320000 ![] bcast_S_S320000 (constant S_ .f32 0x3F800000#32))) (broadcastInDim S10000 ![] bcast_S_S10000 (constant S_ .f32 0x3F800000#32))))))⟩] concatenates_S10000x256_S10000x256_S10000x512_d1) (transpose S512x256 [1, 0] (x4) transposes_S256x512_S512x256_1_0)) (broadcastInDim S10000x256 ![0, 1] bcast_S1x256_S10000x256_0_1 (broadcastInDim S1x256 ![1] bcast_S256_S1x256_1 (x5)))) (broadcastInDim S10000x256 ![] bcast_S_S10000x256 (constant S_ .f32 0x00000000#32))
      = val_main_v41 (F := F) x0 x1 x2 x3 x4 x5 :=
  val_main_v41_eq x0 x1 x2 x3 x4 x5

end RunTerm

/-! ## Words -/

/-- The table has a row. -/
theorem hN : 0 < 10000 := by decide

/-- A word that is negative when read signed is raised by the node count; any other word is kept. -/
theorem raise_eq (w : BitVec 32) :
    Scalar.select (IntOp.cmpi .slt w 0#32) (IntOp.addi w 10000#32) w = if BitVec.toInt w < 0 then w + 10000#32 else w := by
  have key : IntOp.cmpi .slt w 0#32 = 1 ↔ BitVec.toInt w < 0 := by
    show BitVec.ofBool (w.slt 0#32) = 1 ↔ _
    constructor
    · intro hb
      have hs : w.slt 0#32 = true := by
        cases hc : w.slt 0#32 with
        | true => rfl
        | false => rw [hc] at hb; exact absurd hb (by decide)
      simpa using BitVec.slt_iff_toInt_lt.mp hs
    · intro h
      have hs : w.slt 0#32 = true := BitVec.slt_iff_toInt_lt.mpr (by simpa using h)
      rw [hs]; rfl
  unfold Scalar.select IntOp.addi
  by_cases h : BitVec.toInt w < 0
  · rw [if_pos h, if_pos (key.mpr h)]
  · rw [if_neg h, if_neg (fun hb => h (key.mp hb))]

/-- The raised word, read signed and clamped into the table, is the row the plain formula names. -/
theorem clampRow_raise (w : BitVec 32) :
    LibRowOps.clampRow 10000 hN (BitVec.toInt (if BitVec.toInt w < 0 then w + 10000#32 else w)) = Spec.rowOf w := by
  unfold LibRowOps.clampRow Spec.rowOf
  exact Fin.ext rfl

variable (x0 : (⟨S10000x256, .f32⟩ : BufTy).Contents (Elt Ideal)) (x1 : (⟨S320000, .f32⟩ : BufTy).Contents (Elt Ideal))
  (x2 x3 : (⟨S320000, .i32⟩ : BufTy).Contents (Elt Ideal)) (x4 : (⟨S256x512, .f32⟩ : BufTy).Contents (Elt Ideal))
  (x5 : (⟨S256, .f32⟩ : BufTy).Contents (Elt Ideal))

/-! ## The first edge's source row -/

/-- The one-element slice reshaped to a scalar reads the first source word. -/
theorem v1_apply (i : S_.Idx) : val_main_v1 (F := Ideal) x2 i = x2 (ix1 ⟨0, by decide⟩) := by
  unfold val_main_v1
  have hk : (S1.rowMajor (ix1 (0 : Fin 1))).val = (S_.rowMajor i).val := by
    rw [Shape.rowMajor_val_one]
    exact (Shape.rowMajorPi_zero _ i).symm
  rw [shapeCast_apply (val_main_v0 (F := Ideal) x2) shapeCasts_S1_S_ i (ix1 (0 : Fin 1)) hk, val_main_v0_apply]
  exact congrArg x2 (funext fun a => match a with | ⟨0, _⟩ => rfl)

/-- The first source word, raised when negative. -/
theorem v4_apply (i : S_.Idx) :
    val_main_v4 (F := Ideal) x2 i
      = if BitVec.toInt (x2 (ix1 ⟨0, by decide⟩)) < 0 then x2 (ix1 ⟨0, by decide⟩) + 10000#32 else x2 (ix1 ⟨0, by decide⟩) := by
  rw [val_main_v4_apply, val_main_v2_apply, val_main_v3_apply, val_main_c_apply, val_main_c_0_apply, v1_apply]
  exact raise_eq _

/-- The column start of the one-row slice is zero. -/
theorem v7_toInt (i : S_.Idx) : BitVec.toInt (val_main_v7 (F := Ideal) i) = 0 := by
  rw [val_main_v7_apply, val_main_v5_apply, val_main_c_1_apply, val_main_c_2_apply, val_main_c_5_apply]
  rfl

/-- The one-row slice is the feature row the first edge's source selects. -/
theorem v8_apply (f : Fin 256) :
    val_main_v8 (F := Ideal) x0 x2 (ix2 (0 : Fin 1) f) = x0 (ix2 (Spec.rowOf (x2 (ix1 ⟨0, by decide⟩))) f) := by
  unfold val_main_v8
  refine (LibRowOps.dynamicSlice_row_apply hN x0 _ ?_ sliceFits_S10000x256_S1x256 f).trans ?_
  · show BitVec.toInt (val_main_v7 (F := Ideal) (Shape.Idx.first h_S_)) = 0
    exact v7_toInt _
  · show x0 (ix2 (LibRowOps.clampRow 10000 hN (BitVec.toInt (val_main_v4 (F := Ideal) x2 (Shape.Idx.first h_S_)))) f) = _
    rw [v4_apply, clampRow_raise]

/-- That row, copied to every edge. -/
theorem v18_apply (e : Fin 320000) (f : Fin 256) :
    val_main_v18 (F := Ideal) x0 x2 (ix2 e f) = Spec.feat0 (Spec.ofArrays x0 x1 x2 x3 x4 x5) f := by
  rw [val_main_v18_apply, val_main_v17_apply, val_main_v9_apply]
  have hi : idx_main_v9 (idx_main_v17 (idx_main_v18 (ix2 e f))) = ix2 (0 : Fin 1) f := by
    funext a
    match a with
    | ⟨0, _⟩ => rfl
    | ⟨1, _⟩ => exact Fin.ext (Nat.mod_eq_of_lt f.isLt)
  rw [hi, v8_apply]
  rfl

/-! ## The gathered rows and the messages -/

/-- Edge e's source word, raised when negative. -/
theorem v14_apply (e : Fin 320000) :
    val_main_v14 (F := Ideal) x2 (ix1 e) = if BitVec.toInt (x2 (ix1 e)) < 0 then x2 (ix1 e) + 10000#32 else x2 (ix1 e) := by
  rw [val_main_v14_apply, val_main_v11_apply, val_main_v13_apply, val_main_v10_apply, val_main_v12_apply, val_main_c_6_apply,
    val_main_c_7_apply]
  exact raise_eq _

/-- Row e of the gather is the feature row edge e's source selects. -/
theorem v16_apply (e : Fin 320000) (f : Fin 256) :
    val_main_v16 (F := Ideal) x0 x2 (ix2 e f) = x0 (ix2 (Spec.rowOf (x2 (ix1 e))) f) := by
  unfold val_main_v16
  refine (LibRowOps.gather_rows_apply hN gather_S10000x256_S320000x1_S320000x256_1_0_n_n_0_1_1256 rfl rfl rfl rfl rfl rfl rfl x0
    (val_main_v15 (F := Ideal) x2) e f).trans ?_
  have hi : idx_main_v15 (ix2 e (0 : Fin 1)) = ix1 e := funext fun a => match a with | ⟨0, _⟩ => rfl
  rw [val_main_v15_apply, hi, v14_apply, clampRow_raise]

/-- The edge weights, copied along the features. -/
theorem v21_apply (e : Fin 320000) (f : Fin 256) : val_main_v21 (F := Ideal) x1 (ix2 e f) = x1 (ix1 e) := by
  rw [val_main_v21_apply, val_main_v20_apply]
  exact congrArg x1 (funext fun a => match a with | ⟨0, _⟩ => rfl)

/-- The message of edge e. -/
theorem v22_apply (e : Fin 320000) (f : Fin 256) :
    val_main_v22 (F := Ideal) x0 x1 x2 (ix2 e f) = Spec.msgR (Spec.ofArrays x0 x1 x2 x3 x4 x5) e f := by
  rw [val_main_v22_apply, val_main_v19_apply, v18_apply x0 x1 x2 x3 x4 x5, v16_apply, v21_apply]
  rfl

/-! ## The sums over the edges into a node, the in-degree and the mean -/

/-- The scatter of the messages: node n collects the messages of the edges whose destination is n. -/
theorem v25_apply (n : Fin 10000) (f : Fin 256) :
    val_main_v25 (F := Ideal) x0 x1 x2 x3 (ix2 n f) = Spec.sumsR (Spec.ofArrays x0 x1 x2 x3 x4 x5) n f := by
  unfold val_main_v25 Host.scatterAdd
  rw [Ideal.hostScatterAdd_def]
  refine (LibRowOps.scatterAdd_rows_apply scatter_S10000x256_S320000x1_S320000x256_1_0_0_1 rfl rfl rfl rfl
    (val_main_v23 (F := Ideal)) (val_main_v24 (F := Ideal) x3) (val_main_v22 (F := Ideal) x0 x1 x2) n f).trans ?_
  rw [val_main_v23_apply, val_main_cst_apply, Ideal.ofBits_def, Ideal.ofBits_zero_f32, zero_add]
  unfold Spec.sumsR
  refine Finset.sum_congr rfl fun e _ => ?_
  have hi : idx_main_v24 (ix2 e (0 : Fin 1)) = ix1 e := funext fun a => match a with | ⟨0, _⟩ => rfl
  rw [val_main_v24_apply, hi, v22_apply x0 x1 x2 x3 x4 x5]
  rfl

/-- The scatter of ones: the in-degree of node n. -/
theorem v29_apply (n : Fin 10000) :
    val_main_v29 (F := Ideal) x3 (ix1 n) = Spec.cnt (Spec.ofArrays x0 x1 x2 x3 x4 x5) n := by
  unfold val_main_v29 Host.scatterAdd
  rw [Ideal.hostScatterAdd_def]
  refine (LibRowOps.scatterAdd_vec_apply scatter_S10000_S320000x1_S320000_n_0_0_1 rfl rfl rfl rfl
    (val_main_v27 (F := Ideal)) (val_main_v28 (F := Ideal) x3) (val_main_v26 (F := Ideal)) n).trans ?_
  rw [val_main_v27_apply, val_main_cst_9_apply, Ideal.ofBits_def, Ideal.ofBits_zero_f32, zero_add]
  unfold Spec.cnt Spec.one
  refine Finset.sum_congr rfl fun e _ => ?_
  have hi : idx_main_v28 (ix2 e (0 : Fin 1)) = ix1 e := funext fun a => match a with | ⟨0, _⟩ => rfl
  rw [val_main_v28_apply, hi, val_main_v26_apply, val_main_cst_8_apply]
  rfl

/-- The divisor of the mean. -/
theorem v31_apply (n : Fin 10000) :
    val_main_v31 (F := Ideal) x3 (ix1 n) = Spec.den (Spec.ofArrays x0 x1 x2 x3 x4 x5) n := by
  rw [val_main_v31_apply, v29_apply x0 x1 x2 x3 x4 x5, val_main_v30_apply, val_main_cst_10_apply]
  rfl

/-- The divisor, copied along the features. -/
theorem v33_apply (n : Fin 10000) (f : Fin 256) :
    val_main_v33 (F := Ideal) x3 (ix2 n f) = Spec.den (Spec.ofArrays x0 x1 x2 x3 x4 x5) n := by
  have hi : idx_main_v32 (idx_main_v33 (ix2 n f)) = ix1 n := funext fun a => match a with | ⟨0, _⟩ => rfl
  rw [val_main_v33_apply, val_main_v32_apply, hi, v31_apply x0 x1 x2 x3 x4 x5]

/-- The mean message. -/
theorem v34_apply (n : Fin 10000) (f : Fin 256) :
    val_main_v34 (F := Ideal) x0 x1 x2 x3 (ix2 n f) = Spec.hmR (Spec.ofArrays x0 x1 x2 x3 x4 x5) n f := by
  rw [val_main_v34_apply, Ideal.hostDivf_def, v25_apply x0 x1 x2 x3 x4 x5, v33_apply x0 x1 x2 x3 x4 x5]
  rfl

/-! ## The concatenation, the contraction, the bias and the cut at zero -/

/-- Column k of the concatenation: a feature below 256, a mean message from 256 on. -/
theorem v35_apply (n : Fin 10000) (k : Fin 512) :
    val_main_v35 (F := Ideal) x0 x1 x2 x3 (ix2 n k) = Spec.xR (Spec.ofArrays x0 x1 x2 x3 x4 x5) n k := by
  unfold val_main_v35 Spec.xR
  by_cases h : k.val < 256
  · rw [dif_pos h]
    refine (concatenate_pair_apply_left (1 : Fin S10000x512.rank) x0 (val_main_v34 (F := Ideal) x0 x1 x2 x3)
      concatenates_S10000x256_S10000x256_S10000x512_d1 (ix2 n k) rfl (ix2 n ⟨k.val, h⟩)
      (fun b => match b with | ⟨0, _⟩ => rfl | ⟨1, _⟩ => rfl)).trans ?_
    rfl
  · rw [dif_neg h]
    refine (concatenate_pair_apply_right (1 : Fin S10000x512.rank) x0 (val_main_v34 (F := Ideal) x0 x1 x2 x3)
      concatenates_S10000x256_S10000x256_S10000x512_d1 (ix2 n k) rfl rfl (ix2 n ⟨k.val - 256, by omega⟩)
      (fun b hb => match b, hb with | ⟨0, _⟩, _ => rfl | ⟨1, _⟩, hb => absurd (Fin.ext rfl) hb)
      (by show k.val - 256 + 256 = k.val; omega)).trans ?_
    rw [v34_apply x0 x1 x2 x3 x4 x5]

/-- The transposed weights. -/
theorem v36_apply (k : Fin 512) (j : Fin 256) : val_main_v36 (F := Ideal) x4 (ix2 k j) = x4 (ix2 j k) := by
  rw [val_main_v36_apply]
  exact congrArg x4 (funext fun a => match a with | ⟨0, _⟩ => rfl | ⟨1, _⟩ => rfl)

/-- The contraction over the 512 concatenated columns. -/
theorem v37_apply (n : Fin 10000) (j : Fin 256) :
    val_main_v37 (F := Ideal) x0 x1 x2 x3 x4 (ix2 n j)
      = ∑ k : Fin 512, Spec.xR (Spec.ofArrays x0 x1 x2 x3 x4 x5) n k * (Spec.ofArrays x0 x1 x2 x3 x4 x5).W j k := by
  rw [val_main_v37_apply]
  refine Finset.sum_congr rfl fun k _ => ?_
  have hl : lidx_main_v37 (ix2 n j) k = ix2 n k := funext fun a => match a with | ⟨0, _⟩ => rfl | ⟨1, _⟩ => rfl
  have hr : ridx_main_v37 (ix2 n j) k = ix2 k j := funext fun a => match a with | ⟨0, _⟩ => rfl | ⟨1, _⟩ => rfl
  rw [hl, hr, v35_apply x0 x1 x2 x3 x4 x5, v36_apply]
  rfl

/-- The bias, copied to every node. -/
theorem v39_apply (n : Fin 10000) (j : Fin 256) : val_main_v39 (F := Ideal) x5 (ix2 n j) = x5 (ix1 j) := by
  rw [val_main_v39_apply, val_main_v38_apply]
  exact congrArg x5 (funext fun a => match a with | ⟨0, _⟩ => rfl)

/-- THE REFERENCE'S RESULT AT (n, j) is the plain formula's. -/
theorem result_eq (n : Fin 10000) (j : Fin 256) :
    Cert.ReferenceIdeal.Read.val_main_v41 (F := Ideal) x0 x1 x2 x3 x4 x5 (ix2 n j)
      = Cert.Spec.outR (Cert.Spec.ofArrays x0 x1 x2 x3 x4 x5) n j := by
  rw [val_main_v41_apply, val_main_v40_apply, v37_apply x0 x1 x2 x3 x4 x5, v39_apply, val_main_call0_v0_apply,
    val_main_call0_cst_apply, Ideal.ofBits_def, Ideal.ofBits_zero_f32]
  rfl

end Cert.ReferenceIdeal.RefValue

end
-- ==== Proof.SpecAlgebra.lean ====
/-
  The two spellings of the layer in Spec agree wherever every feature and every edge weight is a real number and every
  source word, read signed, names a node.

  The steps: the float word 0x3F800000 is the number 1; a one-hot sum over the nodes reads the one row its word
  names; a 0/1 destination factor is a test; 1250 chunks of 256 edges are the 320000 edges; with real entries the
  common factor moves inside the sum and the product with the reciprocal of the degree is the quotient by the
  degree; a contraction over 512 columns is the contraction over the first 256 plus the contraction over the last
  256.

  Finiteness is used in exactly one place: multiplication of extended reals does not distribute over addition at
  the infinities, so the common factor is moved inside the sum in the reals.
-/
import proofs.«418778_j10660108829138_1_alg».proof.Proof.Spec
import Mathlib.Data.EReal.Basic
import Mathlib.Data.EReal.Operations
import Mathlib.Data.EReal.Inv
import Mathlib.Data.Fintype.BigOperators
import Mathlib.Algebra.BigOperators.Fin
import Mathlib.Algebra.BigOperators.Ring.Finset
import Mathlib.Algebra.BigOperators.Group.Finset.Piecewise
import Mathlib.Logic.Equiv.Fin.Basic
import Mathlib.Tactic.Ring
import Mathlib.Tactic.NormNum
import Mathlib.Tactic.Push

noncomputable section

namespace Cert.Spec

open Idealize.ShloMosaic

/-! ## The constant -/

/-- The float word 0x3F800000 is the number 1. -/
theorem one_eq : one = 1 := by
  unfold one
  simp [Ideal.ofBits, Ideal.ieee, -EReal.coe_mul]; norm_num

/-! ## Sums of real numbers inside the extended reals -/

/-- The sum of real numbers, read as an extended real, is the sum of the numbers read as extended reals. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A guarded real number, read as an extended real. -/
theorem coe_ite (c : Prop) [Decidable c] (x : ℝ) :
    (if c then (x : EReal) else 0) = ((if c then x else 0 : ℝ) : EReal) := by
  split_ifs <;> simp

/-! ## The source row -/

/-- A word that names a node selects that node's row. -/
theorem rowOf_val (w : BitVec 32) (h : 0 ≤ w.toInt ∧ w.toInt < 10000) : ((rowOf w).val : ℤ) = w.toInt := by
  have h1 : (if w.toInt < 0 then w + 10000#32 else w) = w := if_neg (not_lt.mpr h.1)
  show (((min (max (if w.toInt < 0 then w + 10000#32 else w).toInt 0) 9999).toNat : ℕ) : ℤ) = w.toInt
  rw [h1]
  omega

/-- The one-hot indicator of a word that names a node is the indicator of that node. -/
theorem oh_eq (w : BitVec 32) (h : 0 ≤ w.toInt ∧ w.toInt < 10000) (n' : Fin 10000) :
    oh w n'.val = if n' = rowOf w then 1 else 0 := by
  unfold oh
  have hv := rowOf_val w h
  by_cases hn : n' = rowOf w
  · rw [if_pos hn, if_pos (by rw [hn, hv])]
  · rw [if_neg hn, if_neg]
    intro hw
    apply hn
    apply Fin.ext
    have : ((n'.val : ℕ) : ℤ) = ((rowOf w).val : ℤ) := by rw [hv, hw]
    exact_mod_cast this

/-- The one-hot sum over the nodes reads the row the source word names. -/
theorem gathK_eq (I : Inputs) (e : Fin 320000) (f : Fin 256)
    (h : 0 ≤ (I.src e).toInt ∧ (I.src e).toInt < 10000) : gathK I e f = I.feat (rowOf (I.src e)) f := by
  unfold gathK
  have : ∀ n' : Fin 10000, oh (I.src e) n'.val * I.feat n' f
      = if n' = rowOf (I.src e) then I.feat n' f else 0 := by
    intro n'
    rw [oh_eq _ h]
    split_ifs <;> simp
  rw [Finset.sum_congr rfl (fun n' _ => this n'), Finset.sum_ite_eq' Finset.univ (rowOf (I.src e))]
  simp

/-! ## The destination test -/

/-- A 0/1 destination factor is a test. -/
theorem oh_mul (w : BitVec 32) (n : ℕ) (x : EReal) : oh w n * x = if w.toInt = (n : ℤ) then x else 0 := by
  unfold oh
  split_ifs <;> simp

/-! ## The chunks -/

/-- 1250 chunks of 256 edges are the 320000 edges. -/
theorem sum_chunks (g : Fin 320000 → EReal) :
    ∑ t : Fin 1250, ∑ j : Fin 256, g (edge t j) = ∑ e : Fin 320000, g e := by
  rw [← Fintype.sum_prod_type' (fun t j => g (edge t j))]
  refine Fintype.sum_equiv (finProdFinEquiv (m := 1250) (n := 256)) _ _ ?_
  rintro ⟨t, j⟩
  refine congrArg g (Fin.ext ?_)
  show 256 * t.val + j.val = j.val + 256 * t.val
  omega

/-- The chunked weighted sum is the sum over the edges into n of the source row's entry times the weight. -/
theorem sumsK_eq (I : Inputs) (hsrc : ∀ e, 0 ≤ (I.src e).toInt ∧ (I.src e).toInt < 10000)
    (n : Fin 10000) (f : Fin 256) :
    sumsK I n f = ∑ e : Fin 320000,
      (if (I.dst e).toInt = (n.val : ℤ) then I.feat (rowOf (I.src e)) f * I.ew e else 0) := by
  unfold sumsK partK
  rw [sum_chunks (fun e => oh (I.dst e) n.val * (gathK I e f * I.ew e))]
  refine Finset.sum_congr rfl (fun e _ => ?_)
  rw [oh_mul, gathK_eq I e f (hsrc e)]

/-! ## The degree -/

/-- The divisor of the mean is a real number, not zero. -/
theorem den_real (I : Inputs) (n : Fin 10000) : ∃ d : ℝ, d ≠ 0 ∧ den I n = (d : EReal) := by
  refine ⟨max (∑ e : Fin 320000, (if (I.dst e).toInt = (n.val : ℤ) then (1 : ℝ) else 0)) 1, ?_, ?_⟩
  · have : (1 : ℝ) ≤ max (∑ e : Fin 320000, (if (I.dst e).toInt = (n.val : ℤ) then (1 : ℝ) else 0)) 1 :=
      le_max_right _ _
    intro h0
    rw [h0] at this
    norm_num at this
  · unfold den cnt
    rw [one_eq, (EReal.coe_strictMono.monotone).map_max, coe_sum, EReal.coe_one]
    refine congrArg (fun x : EReal => max x 1) (Finset.sum_congr rfl (fun e _ => ?_))
    rw [← EReal.coe_one, coe_ite]

/-! ## The mean message -/

/-- With real entries the common factor moves inside the sum, and the product with the reciprocal of the degree is
    the quotient by the degree. -/
theorem hmK_eq_hmR (I : Inputs) (hfeat : ∀ n f, ∃ r : ℝ, I.feat n f = (r : EReal))
    (hew : ∀ e, ∃ r : ℝ, I.ew e = (r : EReal)) (hsrc : ∀ e, 0 ≤ (I.src e).toInt ∧ (I.src e).toInt < 10000)
    (n : Fin 10000) (f : Fin 256) : hmK I n f = hmR I n f := by
  choose F hF using hfeat
  choose w hw using hew
  obtain ⟨d, hd, hden⟩ := den_real I n
  unfold hmK hmR
  rw [sumsK_eq I hsrc, hden, Ideal.div_coe hd, Ideal.div_coe hd, one_eq, one_mul]
  unfold sumsR msgR feat0
  have hK : ∀ e : Fin 320000,
      (if (I.dst e).toInt = (n.val : ℤ) then I.feat (rowOf (I.src e)) f * I.ew e else 0)
        = ((if (I.dst e).toInt = (n.val : ℤ) then F (rowOf (I.src e)) f * w e else 0 : ℝ) : EReal) := by
    intro e
    rw [hF, hw, ← EReal.coe_mul, coe_ite]
  have hR : ∀ e : Fin 320000,
      (if (I.dst e).toInt = (n.val : ℤ)
          then I.feat (rowOf (I.src ⟨0, by decide⟩)) f * I.feat (rowOf (I.src e)) f * I.ew e else 0)
        = ((if (I.dst e).toInt = (n.val : ℤ)
            then F (rowOf (I.src ⟨0, by decide⟩)) f * (F (rowOf (I.src e)) f * w e) else 0 : ℝ) : EReal) := by
    intro e
    rw [hF, hF, hw, ← EReal.coe_mul, ← EReal.coe_mul, coe_ite, mul_assoc]
  rw [Finset.sum_congr rfl (fun e _ => hK e), Finset.sum_congr rfl (fun e _ => hR e), ← coe_sum, ← coe_sum, hF]
  have key : F (rowOf (I.src ⟨0, by decide⟩)) f
        * (∑ e : Fin 320000, (if (I.dst e).toInt = (n.val : ℤ) then F (rowOf (I.src e)) f * w e else 0))
      = ∑ e : Fin 320000, (if (I.dst e).toInt = (n.val : ℤ)
          then F (rowOf (I.src ⟨0, by decide⟩)) f * (F (rowOf (I.src e)) f * w e) else 0) := by
    rw [Finset.mul_sum]
    refine Finset.sum_congr rfl (fun e _ => ?_)
    split_ifs <;> simp
  rw [← key, EReal.coe_mul]

/-! ## The contraction -/

/-- The contraction over the 512 columns is the contraction over the first 256 plus the contraction over the
    last 256. -/
theorem sum_split (I : Inputs) (n : Fin 10000) (j : Fin 256) :
    ∑ k : Fin 512, xR I n k * I.W j k
      = (∑ k : Fin 256, I.feat n k * I.W j ⟨k.val, by omega⟩)
        + (∑ k : Fin 256, hmR I n k * I.W j ⟨256 + k.val, by omega⟩) := by
  rw [Fin.sum_univ_add (a := 256) (b := 256) (fun k => xR I n k * I.W j k)]
  refine congrArg₂ (· + ·) ?_ ?_
  · refine Finset.sum_congr rfl (fun k _ => ?_)
    have hx : xR I n (Fin.castAdd 256 k) = I.feat n k := by
      unfold xR
      rw [dif_pos (show (Fin.castAdd 256 k).val < 256 from k.isLt)]
      rfl
    rw [hx]
    rfl
  · refine Finset.sum_congr rfl (fun k _ => ?_)
    have hx : xR I n (Fin.natAdd 256 k) = hmR I n k := by
      unfold xR
      rw [dif_neg (show ¬ (Fin.natAdd 256 k).val < 256 from by
        show ¬ (256 + k.val < 256)
        omega)]
      refine congrArg (hmR I n) (Fin.ext ?_)
      show 256 + k.val - 256 = k.val
      omega
    rw [hx]
    rfl

/-! ## The two forms agree -/

/-- Wherever every feature and every weight is a real number and every source word names a node, the blocked
    one-hot form and the plain form of the layer are the same number. -/
theorem outK_eq_outR (I : Inputs) (hfeat : ∀ n f, ∃ r : ℝ, I.feat n f = (r : EReal))
    (hew : ∀ e, ∃ r : ℝ, I.ew e = (r : EReal)) (hsrc : ∀ e, 0 ≤ (I.src e).toInt ∧ (I.src e).toInt < 10000)
    (n : Fin 10000) (j : Fin 256) : outK I n j = outR I n j := by
  unfold outK outR
  have hh : (∑ k : Fin 256, hmK I n k * I.W j ⟨256 + k.val, by omega⟩)
      = ∑ k : Fin 256, hmR I n k * I.W j ⟨256 + k.val, by omega⟩ :=
    Finset.sum_congr rfl (fun k _ => by rw [hmK_eq_hmR I hfeat hew hsrc])
  rw [sum_split, hh]

end Cert.Spec

end
-- ==== Proof.PreDecode.lean ====
/-
  The precondition, read back. The printed predicate compares the absolute value of every float input with the
  float word 0x7F800000 and takes the conjunction of all the results, and compares every source word, read signed,
  with 0 from below and with 10000 from above and takes the conjunction again. The word 0x7F800000 is the point at
  infinity; an extended real whose absolute value is below it is a real number. So, where the predicate holds, every
  feature and every edge weight is a real number, and every source word, read signed, names a node.
-/
import proofs.«418778_j10660108829138_1_alg».proof.Pre_finite_inputs
import proofs.«418778_j10660108829138_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-! ## One element -/

/-- The float word 0x7F800000 is the point at infinity. -/
theorem inf_word : Ideal.ofBits .f32 0x7F800000#32 = ⊤ := by
  simp [Ideal.ofBits, Ideal.ieee]

/-- An extended real whose absolute value is below the point at infinity is a real number. -/
theorem real_of_abs_lt (x : EReal)
    (h : Ideal.cmp .olt (max x (-x)) (Ideal.ofBits .f32 0x7F800000#32) = 1#1) : ∃ r : ℝ, x = (r : EReal) := by
  rw [inf_word] at h
  simp only [Ideal.cmp, StableHlo.Predicate.ofBool_eq_one_iff, decide_eq_true_eq] at h
  induction x using EReal.rec with
  | bot => simp at h
  | coe r => exact ⟨r, rfl⟩
  | top => simp at h

/-- A word that is at least 0 and below 10000, both read signed, names a node. -/
theorem range_of_cmp (w : BitVec 32) (h0 : IntOp.cmpi .sge w 0#32 = 1#1) (h1 : IntOp.cmpi .slt w 10000#32 = 1#1) :
    0 ≤ w.toInt ∧ w.toInt < 10000 := by
  unfold IntOp.cmpi at h0 h1
  rw [StableHlo.Predicate.ofBool_eq_one_iff] at h0 h1
  simp only [BitVec.slt, BitVec.sle, decide_eq_true_eq] at h0 h1
  have z : (0#32).toInt = 0 := by decide
  have t : (10000#32).toInt = 10000 := by decide
  rw [z] at h0
  rw [t] at h1
  exact ⟨h0, h1⟩

/-! ## The predicate -/

/-- Where the printed precondition holds, every feature and every edge weight is a real number and every source
    word, read signed, names a node. -/
theorem decode (a0 : (⟨2, ![10000, 256]⟩ : Shape).Idx → EReal) (a1 : (⟨1, ![320000]⟩ : Shape).Idx → EReal)
    (a2 a3 : (⟨1, ![320000]⟩ : Shape).Idx → BitVec 32) (a4 : (⟨2, ![256, 512]⟩ : Shape).Idx → EReal)
    (a5 : (⟨1, ![256]⟩ : Shape).Idx → EReal)
    (h : Cert.Pre_finite_inputs.fn (F := Ideal) a0 a1 a2 a3 a4 a5 = fun _ => 1#1) :
    (∀ (n : Fin 10000) (f : Fin 256), ∃ r : ℝ, a0 (ix2 n f) = (r : EReal))
      ∧ (∀ e : Fin 320000, ∃ r : ℝ, a1 (ix1 e) = (r : EReal))
      ∧ (∀ e : Fin 320000, 0 ≤ (a2 (ix1 e)).toInt ∧ (a2 (ix1 e)).toInt < 10000) := by
  have e := congrFun h ix0
  dsimp only [Cert.Pre_finite_inputs.fn, Cert.Pre_finite_inputs.fn_part1] at e
  unfold Idealize.ShloMosaic.andi at e
  simp only [IntOp.andi_eq_one] at e
  obtain ⟨⟨⟨⟨h0, h1⟩, -⟩, -⟩, h2⟩ := e
  refine ⟨fun n f => ?_, fun e => ?_, fun e => ?_⟩
  · exact real_of_abs_lt _ (Host.reduce_andi_all _ _ _ _ ix0 h0 (ix2 n f))
  · exact real_of_abs_lt _ (Host.reduce_andi_all _ _ _ _ ix0 h1 (ix1 e))
  · have hb := Host.reduce_andi_all _ _ _ _ ix0 h2 (ix1 e)
    unfold Idealize.ShloMosaic.andi at hb
    rw [IntOp.andi_eq_one] at hb
    exact range_of_cmp _ hb.1 hb.2

end Cert.PreDecode

end
-- ==== Proof.Claims.lean ====
/-
  The five claims of the certificate, assembled.

  Each program runs and leaves its argument arrays as launched. The idealization rewrote no operation. Over the
  extended reals the kernel's result array is, index by index, the blocked one-hot form of the graph layer and the
  reference's is the plain form; the precondition says every feature and every edge weight is a real number and every
  source word, read signed, names a node, and there the two forms are one number.
-/
import proofs.«418778_j10660108829138_1_alg».proof.Defs
import proofs.«418778_j10660108829138_1_alg».proof.Proof.KIBridge
import proofs.«418778_j10660108829138_1_alg».proof.Proof.KRun
import proofs.«418778_j10660108829138_1_alg».proof.Proof.RefValue
import proofs.«418778_j10660108829138_1_alg».proof.Proof.RefRun
import proofs.«418778_j10660108829138_1_alg».proof.Proof.RefRead
import proofs.«418778_j10660108829138_1_alg».proof.Proof.SpecAlgebra
import proofs.«418778_j10660108829138_1_alg».proof.Proof.PreDecode
import proofs.«418778_j10660108829138_1_alg».proof.Proof.Gen.Kernel
import proofs.«418778_j10660108829138_1_alg».proof.Proof.Gen.KernelIdeal
import proofs.«418778_j10660108829138_1_alg».proof.Proof.Gen.ReferenceIdeal
import proofs.«418778_j10660108829138_1_alg».proof.Proof.Gen.Pre_finite_inputs
import Idealize.ShloMosaic.Lib.ValueIdx

noncomputable section

namespace Cert.Proof.Claims

open Idealize.ShloMosaic Idealize.ShloMosaic.ValueIdx Idealize.ShloMosaic.TcCoe Idealize.SL.Sem

/-- The word-level program runs and leaves its arguments as launched. -/
theorem frame_p : Cert.frame_Kernel (hKernel := Cert.Kernel.Gen.facts)
    (hPre_finite_inputs := Cert.Pre_finite_inputs.Gen.facts) :=
  fun m ρ _ => Cert.Kernel.Hand.frame m ρ

/-- The program over the extended reals runs and leaves its arguments as launched. -/
theorem frame_pi : Cert.frame_KernelIdeal (hKernelIdeal := Cert.KernelIdeal.Gen.facts)
    (hPre_finite_inputs := Cert.Pre_finite_inputs.Gen.facts) :=
  fun m ρ _ => Cert.KernelIdeal.Hand.frame m ρ

/-- The reference runs and leaves its arguments as launched. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- Over the extended reals, from memories that agree on the arguments and satisfy the precondition, both programs
    run; the kernel's result array is the blocked one-hot form of the layer at every index, the reference's the plain
    form, and under the precondition (every entry a real number, every source word a node) the two forms are one
    number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨Cert.KernelIdeal.Hand.resArr (F := Ideal) m ρ, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v41_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))).trans ?_
  funext i
  obtain ⟨n, j, rfl⟩ : ∃ (n : Fin 10000) (j : Fin 256), i = ix2 n j := ⟨i 0, i 1, eq_ix2 i⟩
  rw [Cert.ReferenceIdeal.RefValue.result_eq, (hagree c).1, (hagree c).2.1, (hagree c).2.2.1, (hagree c).2.2.2.1,
    (hagree c).2.2.2.2.1, (hagree c).2.2.2.2.2, Cert.KernelIdeal.Hand.resArr_eq_outK]
  obtain ⟨hf, hw, hs⟩ := Cert.PreDecode.decode _ _ _ _ _ _ (hpre c)
  exact (Cert.Spec.outK_eq_outR _ hf hw hs n j).symm

end Cert.Proof.Claims

end
-- ==== Proof.lean ====
/-
  One GCN layer with mean aggregation over a graph of 10000 nodes and 320000 weighted edges:
      out = max (feature · W₁ᵀ + hm · W₂ᵀ + b) 0,
      hm n f = (Σ over the edges e into n of  feature[src 0] f · feature[src e] f · ew e) / max (in-degree of n) 1.
  The kernel program evaluates the edge sum in 1250 chunks of 256 edges, each chunk as two one-hot matrix products
  (a 0/1 indicator of the source node against the feature table, a 0/1 indicator of the destination node against the
  weighted rows), accumulated into one block carried from chunk to chunk; the common factor feature[src 0] and the
  reciprocal of the degree are multiplied in on the host afterwards, and a second tiled kernel contracts the two halves of W
  separately. The reference program reads the source rows directly, scatters the messages onto their destinations,
  divides by the degree, and contracts the concatenation [feature | hm] with Wᵀ once.

  Over the extended reals the two are one function of the arguments when every float input is finite and every source
  word names a node (0 ≤ src e < 10000): the indicator sum over all nodes then collapses to the source row, the chunked
  double sum is the sum over all edges, the common factor and the reciprocal of the (real, at least one) degree distribute
  over the finite sum of real terms, and the contraction over 512 columns splits into its two halves. An edge whose
  destination word names no node is dropped by both programs alike, and both count the in-degree by the same scatter.

  The five conjuncts: each kernel program's frame (it runs to the end, nothing faults, the arguments end unchanged) is the
  run of its two regions and the host stretch between them, at any float instance; the reference's frame is its run with
  the result dropped; the idealization rewrote nothing; and the value claim joins the kernel's result array, read index by
  index off that run, to the reference's result through the two forms of the specification.
-/
import proofs.«418778_j10660108829138_1_alg».proof.Defs
import proofs.«418778_j10660108829138_1_alg».proof.Proof.Gen.Kernel
import proofs.«418778_j10660108829138_1_alg».proof.Proof.Gen.KernelIdeal
import proofs.«418778_j10660108829138_1_alg».proof.Proof.Gen.ReferenceIdeal
import proofs.«418778_j10660108829138_1_alg».proof.Proof.Gen.Pre_finite_inputs
import proofs.«418778_j10660108829138_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, Cert.Proof.Claims.preserves,
    Cert.Proof.Claims.algebraic⟩

end Cert.Proof

end
